-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256x90 : Shape := ⟨3, ![2048, 256, 90]⟩
abbrev S2048x256x89 : Shape := ⟨3, ![2048, 256, 89]⟩
abbrev S2048x256 : Shape := ⟨2, ![2048, 256]⟩
abbrev S256 : Shape := ⟨1, ![256]⟩
abbrev S_ : Shape := ⟨0, ![]⟩

class Facts : Prop where
  bcast_S_S2048x256x90 : S_.BroadcastsInDim S2048x256x90 (![] : Fin 0 → Fin S2048x256x90.rank)
  reducesTo_S2048x256x90_S_d0_1_2 : S2048x256x90.ReducesTo [0, 1, 2] S_
  h_S_ : 0 < S_.numel
  bcast_S_S2048x256x89 : S_.BroadcastsInDim S2048x256x89 (![] : Fin 0 → Fin S2048x256x89.rank)
  reducesTo_S2048x256x89_S_d0_1_2 : S2048x256x89.ReducesTo [0, 1, 2] S_

variable [Facts]

def fn {F : FTy → Type} [FloatOps F] (main_arg0 : FVec F S2048x256x90 .f32) (main_arg1 : FVec F S2048x256x89 .f32) (main_arg2 : IVec S2048x256 32) (main_arg3 : FVec F S2048x256x89 .f32) (main_arg4 : IVec S256 32) : IVec S_ 1 :=
  let main_v0 : FVec F S2048x256x90 .f32 := Host.absf main_arg0
  let main_cst : FVec F S_ .f32 := constant S_ .f32 0x7F800000#32
  let main_v1 : FVec F S2048x256x90 .f32 := broadcastInDim S2048x256x90 ![] bcast_S_S2048x256x90 main_cst
  let main_v2 : IVec S2048x256x90 1 := cmpf .olt main_v0 main_v1
  let main_c : IVec S_ 1 := constantI S_ 1 1#1
  let main_v3 : IVec S_ 1 := (fun x v => Host.reduce IntOp.andi x v reducesTo_S2048x256x90_S_d0_1_2 h_S_) main_v2 main_c
  let main_v4 : FVec F S2048x256x89 .f32 := Host.absf main_arg1
  let main_cst_0 : FVec F S_ .f32 := constant S_ .f32 0x7F800000#32
  let main_v5 : FVec F S2048x256x89 .f32 := broadcastInDim S2048x256x89 ![] bcast_S_S2048x256x89 main_cst_0
  let main_v6 : IVec S2048x256x89 1 := cmpf .olt main_v4 main_v5
  let main_c_1 : IVec S_ 1 := constantI S_ 1 1#1
  let main_v7 : IVec S_ 1 := (fun x v => Host.reduce IntOp.andi x v reducesTo_S2048x256x89_S_d0_1_2 h_S_) main_v6 main_c_1
  let main_v8 : IVec S_ 1 := andi main_v3 main_v7
  let main_v9 : FVec F S2048x256x89 .f32 := Host.absf main_arg3
  let main_cst_2 : FVec F S_ .f32 := constant S_ .f32 0x7F800000#32
  let main_v10 : FVec F S2048x256x89 .f32 := broadcastInDim S2048x256x89 ![] bcast_S_S2048x256x89 main_cst_2
  let main_v11 : IVec S2048x256x89 1 := cmpf .olt main_v9 main_v10
  let main_c_3 : IVec S_ 1 := constantI S_ 1 1#1
  let main_v12 : IVec S_ 1 := (fun x v => Host.reduce IntOp.andi x v reducesTo_S2048x256x89_S_d0_1_2 h_S_) main_v11 main_c_3
  let main_v13 : IVec S_ 1 := andi main_v8 main_v12
  main_v13
-- ==== Kernel.lean ====
abbrev S2048x256x90 : Shape := ⟨3, ![2048, 256, 90]⟩
abbrev S2048x256x89 : Shape := ⟨3, ![2048, 256, 89]⟩
abbrev S2048x256 : Shape := ⟨2, ![2048, 256]⟩
abbrev S256 : Shape := ⟨1, ![256]⟩
abbrev S2x8x128 : Shape := ⟨3, ![2, 8, 128]⟩
abbrev S64x128x90 : Shape := ⟨3, ![64, 128, 90]⟩
abbrev S64x128x89 : Shape := ⟨3, ![64, 128, 89]⟩
abbrev S64x128 : Shape := ⟨2, ![64, 128]⟩
abbrev S128 : Shape := ⟨1, ![128]⟩
abbrev S1x8x128 : Shape := ⟨3, ![1, 8, 128]⟩
abbrev S8x128 : Shape := ⟨2, ![8, 128]⟩
abbrev S64x128x1 : Shape := ⟨3, ![64, 128, 1]⟩
abbrev S1x128 : Shape := ⟨2, ![1, 128]⟩
abbrev S1x64x128 : Shape := ⟨3, ![1, 64, 128]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 12
  | .vmem => 13
  | .smem => 0
  | _ => 0

abbrev bufTy : (tb : Table) → Fin (tcTables nBuf tb) → BufTy
  | .hbm, ⟨0, _⟩ => ⟨S2048x256x90, .f32⟩
  | .hbm, ⟨1, _⟩ => ⟨S2048x256x89, .f32⟩
  | .hbm, ⟨2, _⟩ => ⟨S2048x256, .i32⟩
  | .hbm, ⟨3, _⟩ => ⟨S2048x256x89, .f32⟩
  | .hbm, ⟨4, _⟩ => ⟨S256, .i32⟩
  | .hbm, ⟨5, _⟩ => ⟨S2x8x128, .f32⟩
  | .hbm, ⟨6, _⟩ => ⟨S2x1x1, .f32⟩
  | .hbm, ⟨7, _⟩ => ⟨S2, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S64x128x90, .f32⟩
  | .local _ .vmem, ⟨1, _⟩ => ⟨S64x128x90, .f32⟩
  | .local _ .vmem, ⟨2, _⟩ => ⟨S64x128x89, .f32⟩
  | .local _ .vmem, ⟨3, _⟩ => ⟨S64x128x89, .f32⟩
  | .local _ .vmem, ⟨4, _⟩ => ⟨S64x128, .i32⟩
  | .local _ .vmem, ⟨5, _⟩ => ⟨S64x128, .i32⟩
  | .local _ .vmem, ⟨6, _⟩ => ⟨S64x128x89, .f32⟩
  | .local _ .vmem, ⟨7, _⟩ => ⟨S64x128x89, .f32⟩
  | .local _ .vmem, ⟨8, _⟩ => ⟨S128, .i32⟩
  | .local _ .vmem, ⟨9, _⟩ => ⟨S128, .i32⟩
  | .local _ .vmem, ⟨10, _⟩ => ⟨S1x8x128, .f32⟩
  | .local _ .vmem, ⟨11, _⟩ => ⟨S1x8x128, .f32⟩
  | .local _ .vmem, ⟨12, _⟩ => ⟨S8x128, .f32⟩
  | _, _ => ⟨S2048x256x90, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v79 : BitVec 1 := Scalar.cmpi .eq arg1 c31_i32
  let v80 : BitVec 32 := Scalar.extui v79
  let c0_i32_32 : BitVec 32 := 0#32
  let v81 : BitVec 1 := Scalar.cmpi .ne v80 c0_i32_32
  v81

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x90 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128x89 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x128x89 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S64x128x90_S64x128x90_0_0_0 : ∀ a, (![0, 0, 0] : Fin 3 → Nat) a + S64x128x90.size a ≤ S64x128x90.size a
  h_S64x128x90 : 0 < S64x128x90.numel
  reduces_S64x128x90_S64x128 : S64x128x90.Reduces [2] S64x128
  shapeCasts_S64x128_S64x128x1 : S64x128.ShapeCasts S64x128x1
  broadcasts_S64x128x1_S64x128x90 : S64x128x1.Broadcasts S64x128x90
  inb_S64x128_S64x128_0_0 : ∀ a, (![0, 0] : Fin 2 → Nat) a + S64x128.size a ≤ S64x128.size a
  h_S64x128 : 0 < S64x128.numel
  iota_S64x128x90_d2_w32 : S64x128x90.Iotas .tc 32 [2]
  iota_S64x128_d0_w32 : S64x128.Iotas .tc 32 [0]
  inb_S128_S128_0 : ∀ a, (![0] : Fin 1 → Nat) a + S128.size a ≤ S128.size a
  h_S128 : 0 < S128.numel
  shapeCasts_S128_S1x128 : S128.ShapeCasts S1x128
  broadcasts_S1x128_S64x128 : S1x128.Broadcasts S64x128
  iota_S64x128x89_d2_w32 : S64x128x89.Iotas .tc 32 [2]
  broadcasts_S64x128x1_S64x128x89 : S64x128x1.Broadcasts S64x128x89
  inb_S64x128x89_S64x128x89_0_0_0 : ∀ a, (![0, 0, 0] : Fin 3 → Nat) a + S64x128x89.size a ≤ S64x128x89.size a
  h_S64x128x89 : 0 < S64x128x89.numel
  reduces_S64x128x89_S64x128 : S64x128x89.Reduces [2] S64x128
  shapeCasts_S64x128_S1x64x128 : S64x128.ShapeCasts S1x64x128
  reduces_S1x64x128_S1 : S1x64x128.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x90.size a ≤ S2048x256x90.size a
  hwx0_0 : ∀ i : grid0.Coords, EltTy.bits .f32 = 32 ∨ (Rect.block (s := S2048x256x90) S64x128x90.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x89.size a ≤ S2048x256x89.size a
  hwx0_1 : ∀ i : grid0.Coords, EltTy.bits .f32 = 32 ∨ (Rect.block (s := S2048x256x89) S64x128x89.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S2048x256.size a
  hwx0_2 : ∀ i : grid0.Coords, EltTy.bits .i32 = 32 ∨ (Rect.block (s := S2048x256) S64x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128x89.size a ≤ S2048x256x89.size a
  hwx0_3 : ∀ i : grid0.Coords, EltTy.bits .f32 = 32 ∨ (Rect.block (s := S2048x256x89) S64x128x89.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S256.size a
  hwx0_4 : ∀ i : grid0.Coords, EltTy.bits .i32 = 32 ∨ (Rect.block (s := S256) S128.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)

variable [Facts₀]

abbrev win0_0 : Pipeline.Window sig grid0 :=
  Pipeline.Window.ofSpec (Memref.whole main_arg0) S64x128x90.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128x89.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128x89.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x256x90 : Shape := ⟨3, ![2048, 256, 90]⟩
abbrev S2048x256x89 : Shape := ⟨3, ![2048, 256, 89]⟩
abbrev S2048x256 : Shape := ⟨2, ![2048, 256]⟩
abbrev S256 : Shape := ⟨1, ![256]⟩
abbrev S_ : Shape := ⟨0, ![]⟩
abbrev S2048x256x1 : Shape := ⟨3, ![2048, 256, 1]⟩
abbrev S2048x256x1x1 : Shape := ⟨4, ![2048, 256, 1, 1]⟩
abbrev S1 : Shape := ⟨1, ![1]⟩
abbrev S1x1x1x1 : Shape := ⟨4, ![1, 1, 1, 1]⟩
abbrev S89 : Shape := ⟨1, ![89]⟩
abbrev S2048 : Shape := ⟨1, ![2048]⟩
abbrev S2048x1 : Shape := ⟨2, ![2048, 1]⟩
abbrev S1x256 : Shape := ⟨2, ![1, 256]⟩
abbrev S1x1x89 : Shape := ⟨3, ![1, 1, 89]⟩

abbrev nBuf : Space → Nat
  | .hbm => 103
  | .vmem => 0
  | .smem => 0
  | _ => 0

abbrev bufTy : (tb : Table) → Fin (tcTables nBuf tb) → BufTy
  | .hbm, ⟨0, _⟩ => ⟨S2048x256x90, .f32⟩
  | .hbm, ⟨1, _⟩ => ⟨S2048x256x89, .f32⟩
  | .hbm, ⟨2, _⟩ => ⟨S2048x256, .i32⟩
  | .hbm, ⟨3, _⟩ => ⟨S2048x256x89, .f32⟩
  | .hbm, ⟨4, _⟩ => ⟨S256, .i32⟩
  | .hbm, ⟨5, _⟩ => ⟨S_, .f32⟩
  | .hbm, ⟨6, _⟩ => ⟨S2048x256, .f32⟩
  | .hbm, ⟨7, _⟩ => ⟨S_, .f32⟩
  | .hbm, ⟨8, _⟩ => ⟨S2048x256, .f32⟩
  | .hbm, ⟨9, _⟩ => ⟨S2048x256, .f32⟩
  | .hbm, ⟨10, _⟩ => ⟨S2048x256x1, .f32⟩
  | .hbm, ⟨11, _⟩ => ⟨S2048x256x90, .f32⟩
  | .hbm, ⟨12, _⟩ => ⟨S2048x256x90, .f32⟩
  | .hbm, ⟨13, _⟩ => ⟨S2048x256x90, .f32⟩
  | .hbm, ⟨14, _⟩ => ⟨S_, .f32⟩
  | .hbm, ⟨15, _⟩ => ⟨S2048x256, .f32⟩
  | .hbm, ⟨16, _⟩ => ⟨S2048x256x1, .f32⟩
  | .hbm, ⟨17, _⟩ => ⟨S2048x256x1, .f32⟩
  | .hbm, ⟨18, _⟩ => ⟨S2048x256x90, .f32⟩
  | .hbm, ⟨19, _⟩ => ⟨S2048x256x90, .f32⟩
  | .hbm, ⟨20, _⟩ => ⟨S_, .i32⟩
  | .hbm, ⟨21, _⟩ => ⟨S2048x256, .i32⟩
  | .hbm, ⟨22, _⟩ => ⟨S2048x256, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S2048x256, .i32⟩
  | .hbm, ⟨27, _⟩ => ⟨S2048x256, .i32⟩
  | .hbm, ⟨28, _⟩ => ⟨S_, .i32⟩
  | .hbm, ⟨29, _⟩ => ⟨S2048x256, .i32⟩
  | .hbm, ⟨30, _⟩ => ⟨S2048x256, .i32⟩
  | .hbm, ⟨31, _⟩ => ⟨S2048x256x1, .i32⟩
  | .hbm, ⟨32, _⟩ => ⟨S_, .i32⟩
  | .hbm, ⟨33, _⟩ => ⟨S2048x256x1, .i32⟩
  | .hbm, ⟨34, _⟩ => ⟨S2048x256x1, .i1⟩
  | .hbm, ⟨35, _⟩ => ⟨S_, .i32⟩
  | .hbm, ⟨36, _⟩ => ⟨S2048x256x1, .i32⟩
  | .hbm, ⟨37, _⟩ => ⟨S2048x256x1, .i32⟩
  | .hbm, ⟨38, _⟩ => ⟨S2048x256x1, .i32⟩
  | .hbm, ⟨39, _⟩ => ⟨S2048x256x1x1, .i32⟩
  | .hbm, ⟨40, _⟩ => ⟨S1, .i32⟩
  | .hbm, ⟨41, _⟩ => ⟨S_, .i32⟩
  | .hbm, ⟨42, _⟩ => ⟨S2048x256x1x1, .i32⟩
  | .hbm, ⟨43, _⟩ => ⟨S2048x256x1x1, .i1⟩
  | .hbm, ⟨44, _⟩ => ⟨S1x1x1x1, .i32⟩
  | .hbm, ⟨45, _⟩ => ⟨S2048x256x1x1, .i32⟩
  | .hbm, ⟨46, _⟩ => ⟨S2048x256x1x1, .i1⟩
  | .hbm, ⟨47, _⟩ => ⟨S2048x256x1x1, .i1⟩
  | .hbm, ⟨48, _⟩ => ⟨S_, .i1⟩
  | .hbm, ⟨49, _⟩ => ⟨S2048x256x1, .i1⟩
  | .hbm, ⟨50, _⟩ => ⟨S2048x256x1, .f32⟩
  | .hbm, ⟨51, _⟩ => ⟨S_, .f32⟩
  | .hbm, ⟨52, _⟩ => ⟨S2048x256x1, .f32⟩
  | .hbm, ⟨53, _⟩ => ⟨S2048x256x1, .f32⟩
  | .hbm, ⟨54, _⟩ => ⟨S2048x256, .f32⟩
  | .hbm, ⟨55, _⟩ => ⟨S2048x256, .f32⟩
  | .hbm, ⟨56, _⟩ => ⟨S2048x256, .f32⟩
  | .hbm, ⟨57, _⟩ => ⟨S2048x256, .f32⟩
  | .hbm, ⟨58, _⟩ => ⟨S89, .i32⟩
  | .hbm, ⟨59, _⟩ => ⟨S2048, .i32⟩
  | .hbm, ⟨60, _⟩ => ⟨S2048x1, .i32⟩
  | .hbm, ⟨61, _⟩ => ⟨S1x256, .i32⟩
  | .hbm, ⟨62, _⟩ => ⟨S2048x256, .i32⟩
  | .hbm, ⟨63, _⟩ => ⟨S2048x256, .i32⟩
  | .hbm, ⟨64, _⟩ => ⟨S2048x256, .i1⟩
  | .hbm, ⟨65, _⟩ => ⟨S1x1x89, .i32⟩
  | .hbm, ⟨66, _⟩ => ⟨S_, .i32⟩
  | .hbm, ⟨67, _⟩ => ⟨S2048x256, .i32⟩
  | .hbm, ⟨68, _⟩ => ⟨S2048x256, .i32⟩
  | .hbm, ⟨69, _⟩ => ⟨S2048x256x1, .i32⟩
  | .hbm, ⟨70, _⟩ => ⟨S2048x256x89, .i32⟩
  | .hbm, ⟨71, _⟩ => ⟨S2048x256x89, .i32⟩
  | .hbm, ⟨72, _⟩ => ⟨S2048x256x89, .i1⟩
  | .hbm, ⟨73, _⟩ => ⟨S2048x256x1, .i1⟩
  | .hbm, ⟨74, _⟩ => ⟨S2048x256x89, .i1⟩
  | .hbm, ⟨75, _⟩ => ⟨S2048x256x89, .i1⟩
  | .hbm, ⟨76, _⟩ => ⟨S2048x256x89, .f32⟩
  | .hbm, ⟨77, _⟩ => ⟨S_, .f32⟩
  | .hbm, ⟨78, _⟩ => ⟨S2048x256x89, .f32⟩
  | .hbm, ⟨79, _⟩ => ⟨S2048x256x89, .f32⟩
  | .hbm, ⟨80, _⟩ => ⟨S2048x256x89, .f32⟩
  | .hbm, ⟨81, _⟩ => ⟨S2048x256x89, .f32⟩
  | .hbm, ⟨82, _⟩ => ⟨S_, .f32⟩
  | .hbm, ⟨83, _⟩ => ⟨S2048x256x89, .f32⟩
  | .hbm, ⟨84, _⟩ => ⟨S2048x256x89, .f32⟩
  | .hbm, ⟨85, _⟩ => ⟨S_, .f32⟩
  | .hbm, ⟨86, _⟩ => ⟨S2048x256x89, .f32⟩
  | .hbm, ⟨87, _⟩ => ⟨S2048x256x89, .f32⟩
  | .hbm, ⟨88, _⟩ => ⟨S_, .f32⟩
  | .hbm, ⟨89, _⟩ => ⟨S2048x256x89, .f32⟩
  | .hbm, ⟨90, _⟩ => ⟨S2048x256x89, .f32⟩
  | .hbm, ⟨91, _⟩ => ⟨S2048x256x89, .f32⟩
  | .hbm, ⟨92, _⟩ => ⟨S2048x256x89, .f32⟩
  | .hbm, ⟨93, _⟩ => ⟨S2048x256x89, .f32⟩
  | .hbm, ⟨94, _⟩ => ⟨S2048x256x89, .f32⟩
  | .hbm, ⟨95, _⟩ => ⟨S2048x256x89, .f32⟩
  | .hbm, ⟨96, _⟩ => ⟨S_, .f32⟩
  | .hbm, ⟨97, _⟩ => ⟨S2048x256, .f32⟩
  | .hbm, ⟨98, _⟩ => ⟨S2048x256, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S2048x256x90, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_c_1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v3 : Ref sig .tc := ⟨.hbm, 30, rfl⟩
abbrev main_v4 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_cst : Ref sig .tc := ⟨.hbm, 51, rfl⟩
abbrev main_call2_v14 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_c_2 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_cst : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_cst_3 : Ref sig .tc := ⟨.hbm, 82, rfl⟩
abbrev main_v32 : Ref sig .tc := ⟨.hbm, 83, rfl⟩
abbrev main_v33 : Ref sig .tc := ⟨.hbm, 84, rfl⟩
abbrev main_cst_4 : Ref sig .tc := ⟨.hbm, 85, rfl⟩
abbrev main_v34 : Ref sig .tc := ⟨.hbm, 86, rfl⟩
abbrev main_v35 : Ref sig .tc := ⟨.hbm, 87, rfl⟩
abbrev main_cst_5 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_cst_6 : Ref sig .tc := ⟨.hbm, 96, rfl⟩
abbrev main_v43 : Ref sig .tc := ⟨.hbm, 97, rfl⟩
abbrev main_v44 : Ref sig .tc := ⟨.hbm, 98, rfl⟩
abbrev main_cst_7 : Ref sig .tc := ⟨.hbm, 99, rfl⟩
abbrev main_v45 : Ref sig .tc := ⟨.hbm, 100, rfl⟩
abbrev main_cst_8 : Ref sig .tc := ⟨.hbm, 101, rfl⟩
abbrev main_v46 : Ref sig .tc := ⟨.hbm, 102, rfl⟩

abbrev nD : Nat := 1
abbrev τ : Topo := Topo.v7x

variable {F : FTy → Type} [FloatOps F]

class Facts₀ : Prop where
  reducesTo_S2048x256x90_S2048x256_d2 : S2048x256x90.ReducesTo [2] S2048x256
  h_S_ : 0 < S_.numel
  bcast_S_S2048x256 : S_.BroadcastsInDim S2048x256 (![] : Fin 0 → Fin S2048x256.rank)
  bcast_S2048x256_S2048x256x1_0_1 : S2048x256.BroadcastsInDim S2048x256x1 (![0, 1] : Fin 2 → Fin S2048x256x1.rank)
  bcast_S2048x256x1_S2048x256x90_0_1_2 : S2048x256x1.BroadcastsInDim S2048x256x90 (![0, 1, 2] : Fin 3 → Fin S2048x256x90.rank)
  bcast_S_S2048x256x1 : S_.BroadcastsInDim S2048x256x1 (![] : Fin 0 → Fin S2048x256x1.rank)
  shapeCasts_S2048x256x1_S2048x256x1x1 : S2048x256x1.ShapeCasts S2048x256x1x1
  bcast_S_S2048x256x1x1 : S_.BroadcastsInDim S2048x256x1x1 (![] : Fin 0 → Fin S2048x256x1x1.rank)
  bcast_S1_S1x1x1x1_3 : S1.BroadcastsInDim S1x1x1x1 (![3] : Fin 1 → Fin S1x1x1x1.rank)
  bcast_S1x1x1x1_S2048x256x1x1_0_1_2_3 : S1x1x1x1.BroadcastsInDim S2048x256x1x1 (![0, 1, 2, 3] : Fin 4 → Fin S2048x256x1x1.rank)
  reducesTo_S2048x256x1x1_S2048x256x1_d3 : S2048x256x1x1.ReducesTo [3] S2048x256x1
  shapeCasts_S2048x256x1_S2048x256 : S2048x256x1.ShapeCasts S2048x256
  bcast_S2048_S2048x1_0 : S2048.BroadcastsInDim S2048x1 (![0] : Fin 1 → Fin S2048x1.rank)
  bcast_S256_S1x256_1 : S256.BroadcastsInDim S1x256 (![1] : Fin 1 → Fin S1x256.rank)
  bcast_S2048x1_S2048x256_0_1 : S2048x1.BroadcastsInDim S2048x256 (![0, 1] : Fin 2 → Fin S2048x256.rank)
  bcast_S1x256_S2048x256_0_1 : S1x256.BroadcastsInDim S2048x256 (![0, 1] : Fin 2 → Fin S2048x256.rank)
  bcast_S89_S1x1x89_2 : S89.BroadcastsInDim S1x1x89 (![2] : Fin 1 → Fin S1x1x89.rank)
  bcast_S1x1x89_S2048x256x89_0_1_2 : S1x1x89.BroadcastsInDim S2048x256x89 (![0, 1, 2] : Fin 3 → Fin S2048x256x89.rank)
  bcast_S2048x256x1_S2048x256x89_0_1_2 : S2048x256x1.BroadcastsInDim S2048x256x89 (![0, 1, 2] : Fin 3 → Fin S2048x256x89.rank)
  bcast_S_S2048x256x89 : S_.BroadcastsInDim S2048x256x89 (![] : Fin 0 → Fin S2048x256x89.rank)
  reducesTo_S2048x256x89_S2048x256_d2 : S2048x256x89.ReducesTo [2] S2048x256
  reducesTo_S2048x256_S_d0_1 : S2048x256.ReducesTo [0, 1] S_
  gather_S2048x256x90_S2048x256x1x1_S2048x256x1_n_2_01_01_2_3_111_wf : GatherDims.WF S2048x256x90 S2048x256x1x1 S2048x256x1 [] [2] [0, 1] [2] [0, 1] 3 ![1, 1, 1]

variable [Facts₀]

def gather_S2048x256x90_S2048x256x1x1_S2048x256x1_n_2_01_01_2_3_111 : GatherDims S2048x256x90 S2048x256x1x1 S2048x256x1 where
  offsetDims := []
  collapsedSliceDims := [2]
  operandBatchingDims := [0, 1]
  startIndicesBatchingDims := [0, 1]
  startIndexMap := [2]
  indexVectorDim := 3
  sliceSizes := ![1, 1, 1]
  wf := gather_S2048x256x90_S2048x256x1x1_S2048x256x1_n_2_01_01_2_3_111_wf

class Facts : Prop extends Facts₀ where

variable [Facts]
-- ==== Proof.MaskedLoss.lean ====
/-
  The loss both programs compute, as one function on the extended reals.

  A position is a pair (j, b) of a time step j < 2048 and a batch column b < 256. Its loss has two parts.
  The first is the negated log-softmax of the position's 90 first-token scores at the target class clamped
  into [0, 89], kept only when the target is not the ignore index 999. The second is the binary
  cross-entropy of the position's 89 pattern channels, channel k kept only when k is below 89 minus the
  target (as 32-bit words, compared signed) and the time step is below the column's length. The result is
  the sum of the losses of all positions divided by 256.

  Nothing here needs an entry to be finite: a dropped term is dropped by selection on one side and by a
  factor 0 on the other, and on the extended reals x * 0 = 0 and x * 1 = x for every x, the infinities
  included; the sums are regrouped by commutativity and associativity alone.
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.MaskedLoss

open Idealize.ShloMosaic

/-! ## The constants, by their words -/

/-- The shift inside the logarithms: the f32 nearest 1e-28, as the extended real its word denotes. -/
def eps : EReal := Ideal.ofBits .f32 0x10FD87B6#32
/-- The word of 1.0. -/
def one : EReal := Ideal.ofBits .f32 0x3F800000#32
/-- The word of -∞, from which a row's maximum is taken. -/
def negInf : EReal := Ideal.ofBits .f32 0xFF800000#32
/-- The word of 256.0, the batch size the total is divided by. -/
def batch : EReal := Ideal.ofBits .f32 0x43800000#32

/-! ## The first-token part -/

/-- The largest of a row's 90 scores. -/
def rowMax (x : Fin 90 → EReal) : EReal := (Finset.univ : Finset (Fin 90)).fold max negInf x

/-- The log-softmax of a row at class v: the score shifted by the row's maximum, minus the logarithm of
    the sum of the exponentials of the shifted scores. -/
def logProb (x : Fin 90 → EReal) (v : Fin 90) : EReal :=
  (x v - rowMax x) - Ideal.log (∑ u : Fin 90, Ideal.exp (x u - rowMax x))

/-- The target class clamped into [0, 89], as a word: the smaller of 89 and the larger of 0 and it. -/
def clampClass (tg : BitVec 32) : BitVec 32 := IntOp.minsi 89#32 (IntOp.maxsi 0#32 tg)

/-- The clamped class read signed lies in [0, 89]. -/
theorem clampClass_toInt (tg : BitVec 32) : 0 ≤ (clampClass tg).toInt ∧ (clampClass tg).toInt ≤ 89 := by
  unfold clampClass IntOp.minsi IntOp.maxsi
  have h0 : (0#32 : BitVec 32).toInt = 0 := by decide
  have h89 : (89#32 : BitVec 32).toInt = 89 := by decide
  by_cases h1 : tg.slt 0#32 = true
  · rw [if_pos h1]
    by_cases h2 : (89#32 : BitVec 32).slt 0#32 = true
    · exact absurd h2 (by decide)
    · rw [if_neg h2, h0]; omega
  · rw [if_neg h1]
    have ht : 0 ≤ tg.toInt := by
      simp only [BitVec.slt, h0, decide_eq_true_eq, not_lt] at h1; exact h1
    by_cases h2 : (89#32 : BitVec 32).slt tg = true
    · rw [if_pos h2, h89]; omega
    · rw [if_neg h2]
      simp only [BitVec.slt, h89, decide_eq_true_eq, not_lt] at h2
      exact ⟨ht, h2⟩

/-- So its unsigned value is its signed one, -/
theorem clampClass_toNat (tg : BitVec 32) : ((clampClass tg).toNat : Int) = (clampClass tg).toInt := by
  have h := clampClass_toInt tg
  have hlt := (clampClass tg).isLt
  rw [BitVec.toInt_eq_toNat_cond] at h ⊢
  split at h <;> split <;> omega

/-- and it is a class. -/
theorem clampClass_lt (tg : BitVec 32) : (clampClass tg).toNat < 90 := by
  have h := clampClass_toInt tg
  have h' := clampClass_toNat tg
  omega

/-- The clamped target as one of the 90 classes. -/
def classOf (tg : BitVec 32) : Fin 90 := ⟨(clampClass tg).toNat, clampClass_lt tg⟩

/-- The first-token loss of a position: minus the log-softmax at the clamped target, or 0 at the ignore index. -/
def firstLoss (x : Fin 90 → EReal) (tg : BitVec 32) : EReal :=
  Scalar.select (IntOp.cmpi .ne tg 999#32) (-(logProb x (classOf tg))) 0

/-! ## The pattern part -/

/-- The binary cross-entropy of a score p against a target q, each logarithm's argument shifted by eps. -/
def bce (p q : EReal) : EReal :=
  -(q * Ideal.log (p + eps) + (one - q) * Ideal.log (one - p + eps))

/-- Whether channel k of a position counts: k below 89 minus the target, and the row below the length. -/
def keepBit (tg row len : BitVec 32) (k : Fin 89) : BitVec 1 :=
  IntOp.andi (IntOp.cmpi .slt (BitVec.ofNat 32 k.val) (IntOp.subi 89#32 tg)) (IntOp.cmpi .slt row len)

/-- The pattern loss of a position: the cross-entropies of the channels that count. -/
def patLoss (ps pt : Fin 89 → EReal) (tg row len : BitVec 32) : EReal :=
  ∑ k : Fin 89, Scalar.select (keepBit tg row len k) (bce (ps k) (pt k)) 0

/-! ## A position's loss, a tile's, and the total -/

/-- The loss of one position, from its row of scores, its two rows of channels, its target, its row word
    and its column's length. -/
def cell (x : Fin 90 → EReal) (ps pt : Fin 89 → EReal) (tg row len : BitVec 32) : EReal :=
  firstLoss x tg + patLoss ps pt tg row len

/-- The total: every position's loss, summed, over the batch size. -/
def total (fs : Fin 2048 → Fin 256 → Fin 90 → EReal) (ps pt : Fin 2048 → Fin 256 → Fin 89 → EReal)
    (tg : Fin 2048 → Fin 256 → BitVec 32) (len : Fin 256 → BitVec 32) : EReal :=
  Ideal.div (∑ j : Fin 2048, ∑ b : Fin 256, cell (fs j b) (ps j b) (pt j b) (tg j b) (BitVec.ofNat 32 j.val) (len b)) batch

/-! ## Words -/

/-- A one-bit word is 0 or 1, so a factor read off it is 0 or 1: multiplying by it selects. -/
theorem mul_bit (x : EReal) (b : BitVec 1) : x * (((b.toNat : ℝ)) : EReal) = Scalar.select b x 0 := by
  rcases BitVec.eq_zero_or_eq_one b with h | h
  · subst h
    simp [Scalar.select]
  · subst h
    simp [Scalar.select]

/-- A sum over the 90 classes of a term kept only at the class whose word is c picks that class's term. -/
theorem sum_onehot (c : BitVec 32) (hc : c.toNat < 90) (f : Fin 90 → EReal) :
    ∑ v : Fin 90, Scalar.select (IntOp.cmpi .eq (BitVec.ofNat 32 v.val) c) (f v) 0 = f ⟨c.toNat, hc⟩ := by
  rw [Finset.sum_eq_single (⟨c.toNat, hc⟩ : Fin 90)]
  · have : IntOp.cmpi .eq (BitVec.ofNat 32 c.toNat) c = 1#1 :=
      StableHlo.Predicate.cmpi_eq_iff.mpr (by simp)
    show Scalar.select (IntOp.cmpi .eq (BitVec.ofNat 32 c.toNat) c) _ _ = _
    rw [this]; rfl
  · intro v _ hv
    have hne : ¬ IntOp.cmpi .eq (BitVec.ofNat 32 v.val) c = 1#1 := by
      rw [StableHlo.Predicate.cmpi_eq_iff]
      intro h
      apply hv
      apply Fin.ext
      have := congrArg BitVec.toNat h
      simp only [BitVec.toNat_ofNat] at this
      have hv' : v.val < 90 := v.isLt
      show v.val = c.toNat
      omega
    rw [ValueIdx.eq_zero_of_ne_one hne]; rfl
  · intro h; exact absurd (Finset.mem_univ _) h

/-- A channel index is never below the zero word, read signed. -/
theorem not_slt_zero (k : Fin 89) : IntOp.cmpi .slt (BitVec.ofNat 32 k.val) 0#32 = 0#1 := by
  have hk : k.val < 89 := k.isLt
  apply ValueIdx.eq_zero_of_ne_one
  rw [show (0#32 : BitVec 32) = BitVec.ofNat 32 0 from rfl]
  unfold IntOp.cmpi
  rw [StableHlo.Predicate.slt_ofNat_iff k.val 0 (by omega) (by omega)]
  omega

/-- Folding the row test into the threshold (89 minus the target where the row is below the length, else 0)
    and comparing the channel index with that is the conjunction of the two tests: no channel index is
    below 0. -/
theorem keepBit_of_threshold (tg row len : BitVec 32) (k : Fin 89) :
    IntOp.cmpi .slt (BitVec.ofNat 32 k.val) (Scalar.select (IntOp.cmpi .slt row len) (IntOp.subi 89#32 tg) 0#32)
      = keepBit tg row len k := by
  unfold keepBit
  rcases BitVec.eq_zero_or_eq_one (IntOp.cmpi .slt row len) with h | h
  · rw [h, ValueIdx.select_zero, not_slt_zero]
    unfold IntOp.andi
    rcases BitVec.eq_zero_or_eq_one (IntOp.cmpi .slt (BitVec.ofNat 32 k.val) (IntOp.subi 89#32 tg)) with hx | hx <;>
      rw [hx] <;> decide
  · rw [h, ValueIdx.select_one]
    unfold IntOp.andi
    rcases BitVec.eq_zero_or_eq_one (IntOp.cmpi .slt (BitVec.ofNat 32 k.val) (IntOp.subi 89#32 tg)) with hx | hx <;>
      rw [hx] <;> decide

/-! ## Regrouping the double sum by tiles -/

/-- Row j of the 2048 is row r of the tile t of 64 rows, j = 64 t + r. -/
def rowOf (t : Fin 32) (r : Fin 64) : Fin 2048 := ⟨t.val * 64 + r.val, by have := t.isLt; have := r.isLt; omega⟩
/-- Column b of the 256 is column c of the tile bt of 128 columns, b = 128 bt + c. -/
def colOf (bt : Fin 2) (c : Fin 128) : Fin 256 := ⟨bt.val * 128 + c.val, by have := bt.isLt; have := c.isLt; omega⟩

theorem sum_rows {M : Type*} [AddCommMonoid M] (g : Fin 2048 → M) :
    ∑ j : Fin 2048, g j = ∑ t : Fin 32, ∑ r : Fin 64, g (rowOf t r) := by
  rw [← Fintype.sum_prod_type' (f := fun t r => g (rowOf t r))]
  rw [← Equiv.sum_comp (finProdFinEquiv (m := 32) (n := 64)) g]
  refine Finset.sum_congr rfl fun p _ => congrArg g (Fin.ext ?_)
  show p.2.val + 64 * p.1.val = p.1.val * 64 + p.2.val
  omega

theorem sum_cols {M : Type*} [AddCommMonoid M] (g : Fin 256 → M) :
    ∑ b : Fin 256, g b = ∑ bt : Fin 2, ∑ c : Fin 128, g (colOf bt c) := by
  rw [← Fintype.sum_prod_type' (f := fun bt c => g (colOf bt c))]
  rw [← Equiv.sum_comp (finProdFinEquiv (m := 2) (n := 128)) g]
  refine Finset.sum_congr rfl fun p _ => congrArg g (Fin.ext ?_)
  show p.2.val + 128 * p.1.val = p.1.val * 128 + p.2.val
  omega

/-- The sum over all positions, taken column tile by column tile, then row tile by row tile, then over
    the tile's positions: the order the accumulation over the grid takes. -/
theorem sum_tiles {M : Type*} [AddCommMonoid M] (f : Fin 2048 → Fin 256 → M) :
    ∑ j : Fin 2048, ∑ b : Fin 256, f j b
      = ∑ bt : Fin 2, ∑ t : Fin 32, ∑ r : Fin 64, ∑ c : Fin 128, f (rowOf t r) (colOf bt c) := by
  calc ∑ j : Fin 2048, ∑ b : Fin 256, f j b
      = ∑ t : Fin 32, ∑ r : Fin 64, ∑ bt : Fin 2, ∑ c : Fin 128, f (rowOf t r) (colOf bt c) := by
        rw [sum_rows]
        exact Finset.sum_congr rfl fun t _ => Finset.sum_congr rfl fun r _ => sum_cols _
    _ = ∑ t : Fin 32, ∑ bt : Fin 2, ∑ r : Fin 64, ∑ c : Fin 128, f (rowOf t r) (colOf bt c) :=
        Finset.sum_congr rfl fun t _ => Finset.sum_comm
    _ = ∑ bt : Fin 2, ∑ t : Fin 32, ∑ r : Fin 64, ∑ c : Fin 128, f (rowOf t r) (colOf bt c) :=
        Finset.sum_comm

end Cert.MaskedLoss

end
-- ==== Proof.TileLoss.lean ====
/-
  What the kernel's body computes at one grid point, read at the extended reals: from the point's blocks of
  scores, channels, targets and lengths it adds to every entry of its 8 × 128 accumulator the sum, over the
  64 × 128 positions of the tile, of the position's loss.
-/
import proofs.«408193_j18116172054727_3_alg».proof.Proof.Gen.KernelIdeal.Skeleton
import proofs.«408193_j18116172054727_3_alg».proof.Proof.MaskedLoss
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.TileLoss

open Idealize.ShloMosaic Idealize.ShloMosaic.ValueIdx Cert.KernelIdeal Cert.KernelIdeal.Gen Cert.MaskedLoss

/-! ## Layout: a value per position repeated along a new last axis -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## The integer and transcendental operations at an index -/

section Pointwise
variable {s : Shape} {w : ℕ}

theorem cmpi_apply (p : CmpIPredicate) (x y : IVec s w) (i : s.Idx) : cmpi p x y i = IntOp.cmpi p (x i) (y i) := rfl
theorem maxsi_apply (x y : IVec s w) (i : s.Idx) : maxsi x y i = IntOp.maxsi (x i) (y i) := rfl
theorem minsi_apply (x y : IVec s w) (i : s.Idx) : minsi x y i = IntOp.minsi (x i) (y i) := rfl
theorem subi_apply (x y : IVec s w) (i : s.Idx) : subi x y i = IntOp.subi (x i) (y i) := rfl
theorem exp_apply {φ : FTy} (x : FVec Ideal s φ) (i : s.Idx) : exp x i = Ideal.exp (x i) := rfl
theorem log_apply {φ : FTy} (x : FVec Ideal s φ) (i : s.Idx) : log x i = Ideal.log (x i) := rfl

/-- The channel word of a position is its last coordinate. -/
theorem iota_last3 {a b n : ℕ} (h : Shape.Iotas (⟨3, ![a, b, n]⟩ : Shape) .tc 32 [2]) (i : Fin a) (j : Fin b) (k : Fin n) :
    iota .tc ⟨3, ![a, b, n]⟩ 32 [2] h (ix3 i j k) = BitVec.ofNat 32 k.val := by
  rw [iota_single_apply]; rfl

end Pointwise

/-! ## Reductions over the last of three axes, read at a position -/

section Reductions

/-- The index a reduction over the last of three axes inserts over `(i, j)` at `k` is `(i, j, k)`. -/
theorem lift_last3 {a b n : ℕ} (h : Shape.Reduces ⟨3, ![a, b, n]⟩ [2] ⟨2, ![a, b]⟩) (i : Fin a) (j : Fin b) (k : Fin n) :
    h.lift (ix2 i j) k = ix3 i j k := by
  funext c
  match c with
  | ⟨0, _⟩ => exact Fin.ext rfl
  | ⟨1, _⟩ => exact Fin.ext rfl
  | ⟨2, _⟩ => exact Fin.ext rfl

/-- A sum over the last of three axes, read at `(i, j)`: the sum over `k` of the source at `(i, j, k)`. -/
theorem sum_last3 {a b n : ℕ} (src : FVec Ideal ⟨3, ![a, b, n]⟩ .f32)
    (h : Shape.Reduces ⟨3, ![a, b, n]⟩ [2] ⟨2, ![a, b]⟩) (hφ : FKind.Formats .f32)
    (hacc : @Eq (BitVec FTy.f32.bits) 0x00000000#32 0x00000000#32) (i : Fin a) (j : Fin b) :
    multiReduction .add [2] ⟨2, ![a, b]⟩ src 0x00000000#32 h hφ hacc (ix2 i j) = ∑ k : Fin n, src (ix3 i j k) :=
  (Ideal.multiReduction_add_single src 0x00000000#32 h hφ hacc (ix2 i j)).trans
    (Finset.sum_congr rfl fun k _ => congrArg src (lift_last3 h i j k))

/-- A maximum over the last of three axes, read at `(i, j)`: the largest over `k` of the source at `(i, j, k)`,
    taken from -∞. -/
theorem max_last3 {a b n : ℕ} (src : FVec Ideal ⟨3, ![a, b, n]⟩ .f32)
    (h : Shape.Reduces ⟨3, ![a, b, n]⟩ [2] ⟨2, ![a, b]⟩) (hφ : FKind.Formats .f32)
    (hacc : @Eq (BitVec FTy.f32.bits) 0xFF800000#32 0xFF800000#32) (i : Fin a) (j : Fin b) :
    multiReduction .maximumf [2] ⟨2, ![a, b]⟩ src 0xFF800000#32 h hφ hacc (ix2 i j)
      = (Finset.univ : Finset (Fin n)).fold max (Ideal.ofBits .f32 0xFF800000#32) (fun k => src (ix3 i j k)) :=
  (Ideal.multiReduction_maximumf_single src 0xFF800000#32 h hφ hacc (ix2 i j)).trans
    (congrArg (fun f : Fin n → EReal => (Finset.univ : Finset (Fin n)).fold max (Ideal.ofBits .f32 0xFF800000#32) f)
      (funext fun k => congrArg src (lift_last3 h i j k)))

end Reductions

/-! ## The sum over the whole tile -/

section Tile

/-- The one entry of a `[1]` array viewed `[1, 1, 1]`. -/
theorem extract_at (v : FVec Ideal S1 .f32) (h : S1.ShapeCasts S1x1x1)
    (hp : ∀ a, (![0, 0, 0] : Fin 3 → Nat) a < S1x1x1.size a) :
    extractAt ![0, 0, 0] (shapeCast S1x1x1 v h) hp = v (ix1 (0 : Fin 1)) := by
  unfold extractAt
  exact shapeCast_apply v h _ _ (by rw [Shape.rowMajor_val_one, Shape.rowMajor_val_three]; rfl)

/-- The sum of a `[1, 64, 128]` array over its last two axes, into a shape with one entry, is the sum of all its
    entries. -/
theorem total_at (src : FVec Ideal S1x64x128 .f32) (h : S1x64x128.Reduces [1, 2] S1) (hφ : FKind.Formats .f32)
    (hacc : @Eq (BitVec FTy.f32.bits) 0x00000000#32 0x00000000#32) (j : S1.Idx) :
    multiReduction .add [1, 2] S1 src 0x00000000#32 h hφ hacc j = ∑ i : S1x64x128.Idx, src i :=
  Ideal.multiReduction_add_total src 0x00000000#32 h (fun b => by match b with | ⟨0, _⟩ => rfl) hφ hacc j

/-- The entries of a `[64, 128]` array viewed `[1, 64, 128]`, summed, are its entries summed row by row: the view
    is a bijection of the index sets. -/
theorem sum_tile (v : S64x128.Idx → EReal) (h : S64x128.ShapeCasts S1x64x128) :
    ∑ i : S1x64x128.Idx, shapeCast S1x64x128 v h i = ∑ r : Fin 64, ∑ c : Fin 128, v (ix2 r c) := by
  unfold shapeCast
  rw [Equiv.sum_comp (Shape.reshapeEquiv h) v, sum_idx2]

end Tile

/-! ## The four payloads -/

/-- The first-token payload at position (r, c) of the tile is the first-token loss of that position's row of
    scores and its target. -/
theorem first_at (x0 : Vec Ideal S64x128x90 .f32) (x2 : Vec Ideal S64x128 .i32) (r : Fin 64) (c : Fin 128) :
    k0_pay3 (F := Ideal) x0 x2 (ix2 r c) = firstLoss (fun v => x0 (ix3 r c v)) (x2 (ix2 r c)) := by
  unfold k0_pay3
  -- every operation read at (r, c), the reductions as sums and a maximum over the class index
  simp only [select_apply, subf_apply, broadcast_apply, cmpi_apply, minsi_apply, maxsi_apply, exp_apply, log_apply,
    sum_last3 (a := 64) (b := 128) (n := 90), max_last3 (a := 64) (b := 128) (n := 90),
    broadcastTo_ab1_abn_apply (a := 64) (b := 128) (n := 90), shapeCast_ab_ab1_apply (a := 64) (b := 128),
    iota_last3 (a := 64) (b := 128) (n := 90),
    Ideal.ofBits_def, Ideal.ofBits_zero_f32, zero_sub]
  unfold firstLoss
  refine congrArg (fun z => Scalar.select (IntOp.cmpi .ne (x2 (ix2 r c)) 999#32) (-z) 0) ?_
  -- the sum over the classes keeps the one term at the clamped target
  exact sum_onehot (clampClass (x2 (ix2 r c))) (clampClass_lt _) (logProb fun v => x0 (ix3 r c v))

/-- The row word at position (r, c) of the tile at grid point i: the tile's first row, 64 times the point's
    second coordinate, plus r. -/
theorem row_at (i : grid0.Coords) (r : Fin 64) (c : Fin 128) :
    k0_pay4 i (ix2 r c) = BitVec.ofNat 32 ((i 1).val * 64 + r.val) := by
  unfold k0_pay4
  show IntOp.addi (Scalar.muli (BitVec.ofNat 32 (i 1).val) 64#32) (iota .tc S64x128 32 [0] _ (ix2 r c)) = _
  rw [iota_single_apply]
  show BitVec.ofNat 32 (i 1).val * 64#32 + BitVec.ofNat 32 r.val = _
  rw [show (64#32 : BitVec 32) = BitVec.ofNat 32 64 from rfl, ← BitVec.ofNat_mul, ← BitVec.ofNat_add]

/-- The length word at position (r, c) is the block's entry for column c. -/
theorem len_at (x4 : Vec Ideal S128 .i32) (r : Fin 64) (c : Fin 128) :
    k0_pay5 (F := Ideal) x4 (ix2 r c) = x4 (ix1 c) := by
  unfold k0_pay5
  exact (broadcastTo_1b_ab_apply _ _ r c).trans (shapeCast_a_1a_apply _ _ 0 c)

/-- The body's new accumulator: the old one plus, at every entry, the sum of the tile's positions' losses. -/
theorem step_at (i : grid0.Coords) (x0 : Vec Ideal S64x128x90 .f32) (x1 : Vec Ideal S64x128x89 .f32)
    (x2 : Vec Ideal S64x128 .i32) (x3 : Vec Ideal S64x128x89 .f32) (x4 : Vec Ideal S128 .i32)
    (acc : Vec Ideal S8x128 .f32) (y : S8x128.Idx) :
    k0_pay6 (F := Ideal) x2 (k0_pay3 x0 x2) (k0_pay4 i) (k0_pay5 x4) x1 x3 acc y
      = acc y + ∑ r : Fin 64, ∑ c : Fin 128,
          cell (fun v => x0 (ix3 r c v)) (fun k => x1 (ix3 r c k)) (fun k => x3 (ix3 r c k)) (x2 (ix2 r c))
            (BitVec.ofNat 32 ((i 1).val * 64 + r.val)) (x4 (ix1 c)) := by
  unfold k0_pay6
  rw [shapeCast_self]
  simp only [addf_apply, broadcast_apply]
  -- the added scalar is the sum over the tile's positions
  rw [extract_at, total_at, sum_tile]
  refine congrArg (acc y + ·) (Finset.sum_congr rfl fun r _ => Finset.sum_congr rfl fun c _ => ?_)
  -- at one position: the first-token loss plus the kept channels' cross-entropies
  simp only [addf_apply, subf_apply, mulf_apply, log_apply, select_apply, cmpi_apply, subi_apply, broadcast_apply,
    first_at, row_at, len_at,
    sum_last3 (a := 64) (b := 128) (n := 89), broadcastTo_ab1_abn_apply (a := 64) (b := 128) (n := 89),
    shapeCast_ab_ab1_apply (a := 64) (b := 128), iota_last3 (a := 64) (b := 128) (n := 89),
    keepBit_of_threshold, Ideal.ofBits_def, Ideal.ofBits_zero_f32, zero_sub]
  rfl

end Cert.KernelIdeal.TileLoss

end
-- ==== Proof.TileRun.lean ====
/-
  The idealized kernel's run, read as values.

  The grid has 2 × 32 points: point n is row tile n mod 32 of column tile n div 32. At every point the body adds
  to each entry of its 8 × 128 accumulator the sum of the losses of the tile's 64 × 128 positions; the first
  point of a column tile first resets the accumulator to zero, and the last one copies it into the column
  tile's 8 × 128 block of the 2 × 8 × 128 output. So after point n the accumulator holds, at every entry, the
  sum of the tiles of rows 0 … n mod 32 of column tile n div 32, and the output block of column tile bt ends
  holding the sum of that column tile's positions' losses at every entry. The host then takes entry (bt, 0, 0)
  of the two blocks, adds them from zero and divides by the batch size: the total.
-/
import proofs.«408193_j18116172054727_3_alg».proof.Proof.Gen.KernelIdeal.Frame
import proofs.«408193_j18116172054727_3_alg».proof.Proof.TileLoss
import proofs.«408193_j18116172054727_3_alg».proof.Proof.MaskedLoss
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

noncomputable section

open scoped BigOperators

open Idealize.ShloMosaic Idealize.ShloMosaic.TcCoe Idealize.SL.Sem Idealize.ShloMosaic.ValueIdx
open Idealize.ShloMosaic.Pipeline (Dat)

namespace Cert.KernelIdeal.TileRun

open Cert.KernelIdeal Cert.KernelIdeal.Gen Cert.MaskedLoss

/-! ## What each case of the body leaves, as the body's arithmetic of what it loaded -/

section Pieces

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- One point's update of the accumulator: the old contents plus the tile's sum at every entry, as the body
    computes it from the point's five blocks. -/
abbrev step (i : grid0.Coords) (x0 : Vec F S64x128x90 .f32) (x1 : Vec F S64x128x89 .f32) (x2 : Vec F S64x128 .i32) (x3 : Vec F S64x128x89 .f32) (x4 : Vec F S128 .i32) (acc : Vec F S8x128 .f32) : Vec F S8x128 .f32 :=
  k0_pay6 x2 (k0_pay3 x0 x2) (k0_pay4 i) (k0_pay5 x4) x1 x3 acc

/-- At a column tile's first point the accumulator is reset and then updated: the update of the zero block. -/
theorem sout_A (c : Dev nD) (i : grid0.Coords) (arg2 : Memref sig .tc .vmem S64x128x90 .f32) (harg2 : arg2.IsWhole) (arg3 : Memref sig .tc .vmem S64x128x89 .f32) (harg3 : arg3.IsWhole) (arg4 : Memref sig .tc .vmem S64x128 .i32) (harg4 : arg4.IsWhole) (arg5 : Memref sig .tc .vmem S64x128x89 .f32) (harg5 : arg5.IsWhole) (arg6 : Memref sig .tc .vmem S128 .i32) (harg6 : arg6.IsWhole) (arg7 : Memref sig .tc .vmem S1x8x128 .f32) (harg7 : arg7.IsWhole) (arg8 : Memref sig .tc .vmem S8x128 .f32) (harg8 : arg8.IsWhole) (hc0 : cond0_0 i) (hc1 : ¬cond0_1 i)
    (x0 : Vec F S64x128x90 .f32) (x1 : Vec F S64x128x89 .f32) (x2 : Vec F S64x128 .i32) (x3 : Vec F S64x128x89 .f32) (x4 : Vec F S128 .i32) :
    sout0_A_0 c i arg2 harg2 arg3 harg3 arg4 harg4 arg5 harg5 arg6 harg6 arg7 harg7 arg8 harg8 hc0 hc1 x0 x1 x2 x3 x4 = step i x0 x1 x2 x3 x4 (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S8x128) hz2, View.readCov_unit_zero (S := S8x128) _ hz2]
  simp only [View.readAt_eq_ld, harg2.read_unread, harg3.read_unread, harg4.read_unread, harg5.read_unread, harg6.read_unread,
    View.ld_unit_zero (S := S64x128x90) hz3, View.ld_unit_zero (S := S64x128x89) hz3,
    View.ld_unit_zero (S := S64x128) hz2, View.ld_unit_zero (S := S128) hz1, View.ld_unit_zero (S := S8x128) hz2,
    View.readCov_unit_zero (S := S8x128) _ hz2]

/-- At a point in the middle of a column tile the accumulator the point before left is updated. -/
theorem sout_B (c : Dev nD) (i : grid0.Coords) (arg2 : Memref sig .tc .vmem S64x128x90 .f32) (harg2 : arg2.IsWhole) (arg3 : Memref sig .tc .vmem S64x128x89 .f32) (harg3 : arg3.IsWhole) (arg4 : Memref sig .tc .vmem S64x128 .i32) (harg4 : arg4.IsWhole) (arg5 : Memref sig .tc .vmem S64x128x89 .f32) (harg5 : arg5.IsWhole) (arg6 : Memref sig .tc .vmem S128 .i32) (harg6 : arg6.IsWhole) (arg7 : Memref sig .tc .vmem S1x8x128 .f32) (harg7 : arg7.IsWhole) (arg8 : Memref sig .tc .vmem S8x128 .f32) (harg8 : arg8.IsWhole) (hc0 : ¬cond0_0 i) (hc1 : ¬cond0_1 i)
    (x0 : Vec F S64x128x90 .f32) (x1 : Vec F S64x128x89 .f32) (x2 : Vec F S64x128 .i32) (x3 : Vec F S64x128x89 .f32) (x4 : Vec F S128 .i32) (xs0 : Vec F S8x128 .f32) :
    sout0_B_0 c i arg2 harg2 arg3 harg3 arg4 harg4 arg5 harg5 arg6 harg6 arg7 harg7 arg8 harg8 hc0 hc1 x0 x1 x2 x3 x4 xs0 = step i x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread, harg6.read_unread,
    harg8.read_unread, View.ld_unit_zero (S := S64x128x90) hz3, View.ld_unit_zero (S := S64x128x89) hz3,
    View.ld_unit_zero (S := S64x128) hz2, View.ld_unit_zero (S := S128) hz1, View.ld_unit_zero (S := S8x128) hz2]

/-- At a column tile's last point the accumulator is updated in the same way, -/
theorem sout_C (c : Dev nD) (i : grid0.Coords) (arg2 : Memref sig .tc .vmem S64x128x90 .f32) (harg2 : arg2.IsWhole) (arg3 : Memref sig .tc .vmem S64x128x89 .f32) (harg3 : arg3.IsWhole) (arg4 : Memref sig .tc .vmem S64x128 .i32) (harg4 : arg4.IsWhole) (arg5 : Memref sig .tc .vmem S64x128x89 .f32) (harg5 : arg5.IsWhole) (arg6 : Memref sig .tc .vmem S128 .i32) (harg6 : arg6.IsWhole) (arg7 : Memref sig .tc .vmem S1x8x128 .f32) (harg7 : arg7.IsWhole) (arg8 : Memref sig .tc .vmem S8x128 .f32) (harg8 : arg8.IsWhole) (hc0 : ¬cond0_0 i) (hc1 : cond0_1 i)
    (x0 : Vec F S64x128x90 .f32) (x1 : Vec F S64x128x89 .f32) (x2 : Vec F S64x128 .i32) (x3 : Vec F S64x128x89 .f32) (x4 : Vec F S128 .i32) (xs0 : Vec F S8x128 .f32) :
    sout0_C_0 c i arg2 harg2 arg3 harg3 arg4 harg4 arg5 harg5 arg6 harg6 arg7 harg7 arg8 harg8 hc0 hc1 x0 x1 x2 x3 x4 xs0 = step i x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread,
    harg8.read_unread, View.ld_unit_zero (S := S64x128x90) hz3, View.ld_unit_zero (S := S64x128x89) hz3,
    View.ld_unit_zero (S := S64x128) hz2, View.ld_unit_zero (S := S128) hz1, View.ld_unit_zero (S := S8x128) hz2]

/-- and the output block is stored: the updated accumulator, under a leading unit axis. -/
theorem out_C (c : Dev nD) (i : grid0.Coords) (arg2 : Memref sig .tc .vmem S64x128x90 .f32) (harg2 : arg2.IsWhole) (arg3 : Memref sig .tc .vmem S64x128x89 .f32) (harg3 : arg3.IsWhole) (arg4 : Memref sig .tc .vmem S64x128 .i32) (harg4 : arg4.IsWhole) (arg5 : Memref sig .tc .vmem S64x128x89 .f32) (harg5 : arg5.IsWhole) (arg6 : Memref sig .tc .vmem S128 .i32) (harg6 : arg6.IsWhole) (arg7 : Memref sig .tc .vmem S1x8x128 .f32) (harg7 : arg7.IsWhole) (arg8 : Memref sig .tc .vmem S8x128 .f32) (harg8 : arg8.IsWhole) (hc0 : ¬cond0_0 i) (hc1 : cond0_1 i)
    (x0 : Vec F S64x128x90 .f32) (x1 : Vec F S64x128x89 .f32) (x2 : Vec F S64x128 .i32) (x3 : Vec F S64x128x89 .f32) (x4 : Vec F S128 .i32) (xs0 : Vec F S8x128 .f32) :
    out0_C_5 c i arg2 harg2 arg3 harg3 arg4 harg4 arg5 harg5 arg6 harg6 arg7 harg7 arg8 harg8 hc0 hc1 x0 x1 x2 x3 x4 xs0 = k0_pay1 (step i x0 x1 x2 x3 x4 xs0) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz3]
  simp only [View.readAt_eq_ld, harg2.read_unread, harg3.read_unread, harg4.read_unread, harg5.read_unread, harg6.read_unread,
    harg8.read_unread, View.ld_unit_zero (S := S64x128x90) hz3, View.ld_unit_zero (S := S64x128x89) hz3,
    View.ld_unit_zero (S := S64x128) hz2, View.ld_unit_zero (S := S128) hz1, View.ld_unit_zero (S := S8x128) hz2,
    View.readCov_unit_zero (S := S8x128) _ hz2]

end Pieces

/-! ## The argument arrays, a point's blocks, and where a block's entry sits in its array -/

section Values

variable (m : (ℓ : Loc nD τ sig) → Buf (Elt Ideal) ℓ) (ρ : Dev nD → PrngReg)

/-- The first-token scores on core c, by coordinates; -/
def fsG (c : Dev nD) : Fin 2048 → Fin 256 → Fin 90 → EReal := fun j b v =>
  (m ((c : Thread nD τ).loc main_arg0) : S2048x256x90.Idx → EReal) (ix3 j b v)
/-- the pattern scores; -/
def psG (c : Dev nD) : Fin 2048 → Fin 256 → Fin 89 → EReal := fun j b k =>
  (m ((c : Thread nD τ).loc main_arg1) : S2048x256x89.Idx → EReal) (ix3 j b k)
/-- the targets; -/
def tgG (c : Dev nD) : Fin 2048 → Fin 256 → BitVec 32 := fun j b =>
  (m ((c : Thread nD τ).loc main_arg2) : S2048x256.Idx → BitVec 32) (ix2 j b)
/-- the pattern targets; -/
def ptG (c : Dev nD) : Fin 2048 → Fin 256 → Fin 89 → EReal := fun j b k =>
  (m ((c : Thread nD τ).loc main_arg3) : S2048x256x89.Idx → EReal) (ix3 j b k)
/-- the lengths. -/
def lnG (c : Dev nD) : Fin 256 → BitVec 32 := fun b =>
  (m ((c : Thread nD τ).loc main_arg4) : S256.Idx → BitVec 32) (ix1 b)

/-- The blocks the body loads at point t, at their literal shapes. -/
abbrev fsB (c : Dev nD) (t : Fin cfg0.N) : Vec Ideal S64x128x90 .f32 := iblk m c 0 t
abbrev psB (c : Dev nD) (t : Fin cfg0.N) : Vec Ideal S64x128x89 .f32 := iblk m c 1 t
abbrev tgB (c : Dev nD) (t : Fin cfg0.N) : Vec Ideal S64x128 .i32 := iblk m c 2 t
abbrev ptB (c : Dev nD) (t : Fin cfg0.N) : Vec Ideal S64x128x89 .f32 := iblk m c 3 t
abbrev lnB (c : Dev nD) (t : Fin cfg0.N) : Vec Ideal S128 .i32 := iblk m c 4 t

/-- Point t's row tile and column tile. -/
def tileRow (t : Fin cfg0.N) : Fin 32 := ⟨t.val % 32, Nat.mod_lt _ (by decide)⟩
def tileCol (t : Fin cfg0.N) : Fin 2 := ⟨t.val / 32, by have := t.isLt; have hN : cfg0.N = 64 := N_0; omega⟩

/-- The block indices of the windows at point t, decided over the grid: rows by t mod 32, columns by t div 32. -/
theorem idx0 : ∀ t : Fin cfg0.N, win0_0.index t 0 = t.val % 32 ∧ win0_0.index t 1 = t.val / 32 ∧ win0_0.index t 2 = 0 :=
  (by decide +kernel : ∀ t : Fin grid0.N, win0_0.index t 0 = t.val % 32 ∧ win0_0.index t 1 = t.val / 32 ∧ win0_0.index t 2 = 0)
theorem idx1 : ∀ t : Fin cfg0.N, win0_1.index t 0 = t.val % 32 ∧ win0_1.index t 1 = t.val / 32 ∧ win0_1.index t 2 = 0 :=
  (by decide +kernel : ∀ t : Fin grid0.N, win0_1.index t 0 = t.val % 32 ∧ win0_1.index t 1 = t.val / 32 ∧ win0_1.index t 2 = 0)
theorem idx2 : ∀ t : Fin cfg0.N, win0_2.index t 0 = t.val % 32 ∧ win0_2.index t 1 = t.val / 32 :=
  (by decide +kernel : ∀ t : Fin grid0.N, win0_2.index t 0 = t.val % 32 ∧ win0_2.index t 1 = t.val / 32)
theorem idx3 : ∀ t : Fin cfg0.N, win0_3.index t 0 = t.val % 32 ∧ win0_3.index t 1 = t.val / 32 ∧ win0_3.index t 2 = 0 :=
  (by decide +kernel : ∀ t : Fin grid0.N, win0_3.index t 0 = t.val % 32 ∧ win0_3.index t 1 = t.val / 32 ∧ win0_3.index t 2 = 0)
theorem idx4 : ∀ t : Fin cfg0.N, win0_4.index t 0 = t.val / 32 :=
  (by decide +kernel : ∀ t : Fin grid0.N, win0_4.index t 0 = t.val / 32)
theorem idx5 : ∀ t : Fin cfg0.N, win0_5.index t 0 = t.val / 32 ∧ win0_5.index t 1 = 0 ∧ win0_5.index t 2 = 0 :=
  (by decide +kernel : ∀ t : Fin grid0.N, win0_5.index t 0 = t.val / 32 ∧ win0_5.index t 1 = 0 ∧ win0_5.index t 2 = 0)
/-- The point's second grid coordinate is its row tile. -/
theorem coord1 : ∀ t : Fin cfg0.N, (grid0.coords t 1).val = t.val % 32 :=
  (by decide +kernel : ∀ t : Fin grid0.N, (grid0.coords t 1).val = t.val % 32)

/-- An entry of the scores block at point t is the array's entry in the tile's row and column. -/
theorem fsB_at (c : Dev nD) (t : Fin cfg0.N) (r : Fin 64) (cc : Fin 128) (v : Fin 90) :
    fsB m c t (ix3 r cc v) = fsG m c (rowOf (tileRow t) r) (colOf (tileCol t) cc) v := by
  show iblk m c 0 t (ix3 r cc v) = _
  unfold iblk fsG
  rw [View.read_apply]
  show V m c main_arg0 _ = (m ((c : Thread nD τ).loc main_arg0) : S2048x256x90.Idx → EReal) _
  refine congrArg (m ((c : Thread nD τ).loc main_arg0) : S2048x256x90.Idx → EReal) ?_
  funext a
  apply Fin.ext
  match a with
  | ⟨0, _⟩ => show win0_0.index t 0 * 64 + 1 * r.val = (t.val % 32) * 64 + r.val; rw [(idx0 t).1]; omega
  | ⟨1, _⟩ => show win0_0.index t 1 * 128 + 1 * cc.val = (t.val / 32) * 128 + cc.val; rw [(idx0 t).2.1]; omega
  | ⟨2, _⟩ => show win0_0.index t 2 * 90 + 1 * v.val = v.val; rw [(idx0 t).2.2]; omega

/-- An entry of the pattern-scores block at point t, in its array; -/
theorem psB_at (c : Dev nD) (t : Fin cfg0.N) (r : Fin 64) (cc : Fin 128) (k : Fin 89) :
    psB m c t (ix3 r cc k) = psG m c (rowOf (tileRow t) r) (colOf (tileCol t) cc) k := by
  show iblk m c 1 t (ix3 r cc k) = _
  unfold iblk psG
  rw [View.read_apply]
  show V m c main_arg1 _ = (m ((c : Thread nD τ).loc main_arg1) : S2048x256x89.Idx → EReal) _
  refine congrArg (m ((c : Thread nD τ).loc main_arg1) : S2048x256x89.Idx → EReal) ?_
  funext a
  apply Fin.ext
  match a with
  | ⟨0, _⟩ => show win0_1.index t 0 * 64 + 1 * r.val = (t.val % 32) * 64 + r.val; rw [(idx1 t).1]; omega
  | ⟨1, _⟩ => show win0_1.index t 1 * 128 + 1 * cc.val = (t.val / 32) * 128 + cc.val; rw [(idx1 t).2.1]; omega
  | ⟨2, _⟩ => show win0_1.index t 2 * 89 + 1 * k.val = k.val; rw [(idx1 t).2.2]; omega

/-- of the targets block; -/
theorem tgB_at (c : Dev nD) (t : Fin cfg0.N) (r : Fin 64) (cc : Fin 128) :
    tgB m c t (ix2 r cc) = tgG m c (rowOf (tileRow t) r) (colOf (tileCol t) cc) := by
  show iblk m c 2 t (ix2 r cc) = _
  unfold iblk tgG
  rw [View.read_apply]
  show V m c main_arg2 _ = (m ((c : Thread nD τ).loc main_arg2) : S2048x256.Idx → BitVec 32) _
  refine congrArg (m ((c : Thread nD τ).loc main_arg2) : S2048x256.Idx → BitVec 32) ?_
  funext a
  apply Fin.ext
  match a with
  | ⟨0, _⟩ => show win0_2.index t 0 * 64 + 1 * r.val = (t.val % 32) * 64 + r.val; rw [(idx2 t).1]; omega
  | ⟨1, _⟩ => show win0_2.index t 1 * 128 + 1 * cc.val = (t.val / 32) * 128 + cc.val; rw [(idx2 t).2]; omega

/-- of the pattern-targets block; -/
theorem ptB_at (c : Dev nD) (t : Fin cfg0.N) (r : Fin 64) (cc : Fin 128) (k : Fin 89) :
    ptB m c t (ix3 r cc k) = ptG m c (rowOf (tileRow t) r) (colOf (tileCol t) cc) k := by
  show iblk m c 3 t (ix3 r cc k) = _
  unfold iblk ptG
  rw [View.read_apply]
  show V m c main_arg3 _ = (m ((c : Thread nD τ).loc main_arg3) : S2048x256x89.Idx → EReal) _
  refine congrArg (m ((c : Thread nD τ).loc main_arg3) : S2048x256x89.Idx → EReal) ?_
  funext a
  apply Fin.ext
  match a with
  | ⟨0, _⟩ => show win0_3.index t 0 * 64 + 1 * r.val = (t.val % 32) * 64 + r.val; rw [(idx3 t).1]; omega
  | ⟨1, _⟩ => show win0_3.index t 1 * 128 + 1 * cc.val = (t.val / 32) * 128 + cc.val; rw [(idx3 t).2.1]; omega
  | ⟨2, _⟩ => show win0_3.index t 2 * 89 + 1 * k.val = k.val; rw [(idx3 t).2.2]; omega

/-- and of the lengths block. -/
theorem lnB_at (c : Dev nD) (t : Fin cfg0.N) (cc : Fin 128) :
    lnB m c t (ix1 cc) = lnG m c (colOf (tileCol t) cc) := by
  show iblk m c 4 t (ix1 cc) = _
  unfold iblk lnG
  rw [View.read_apply]
  show V m c main_arg4 _ = (m ((c : Thread nD τ).loc main_arg4) : S256.Idx → BitVec 32) _
  refine congrArg (m ((c : Thread nD τ).loc main_arg4) : S256.Idx → BitVec 32) ?_
  funext a
  apply Fin.ext
  match a with
  | ⟨0, _⟩ => show win0_4.index t 0 * 128 + 1 * cc.val = (t.val / 32) * 128 + cc.val; rw [idx4 t]; omega

/-! ## A tile's sum, and the accumulator point by point -/

/-- The loss of position (j, b) of the arrays. -/
def cellG (c : Dev nD) (j : Fin 2048) (b : Fin 256) : EReal :=
  cell (fsG m c j b) (psG m c j b) (ptG m c j b) (tgG m c j b) (BitVec.ofNat 32 j.val) (lnG m c b)

/-- The sum of the losses of the 64 × 128 positions of row tile tt of column tile bt. -/
def tile (c : Dev nD) (bt : Fin 2) (tt : Fin 32) : EReal :=
  ∑ r : Fin 64, ∑ cc : Fin 128, cellG m c (rowOf tt r) (colOf bt cc)

/-- The body's update at point t adds the point's tile to every entry. -/
theorem step_tile (c : Dev nD) (t : Fin cfg0.N) (acc : Vec Ideal S8x128 .f32) (y : S8x128.Idx) :
    step (grid0.coords t) (fsB m c t) (psB m c t) (tgB m c t) (ptB m c t) (lnB m c t) acc y = acc y + tile m c (tileCol t) (tileRow t) := by
  show k0_pay6 (F := Ideal) (tgB m c t) (k0_pay3 (fsB m c t) (tgB m c t)) (k0_pay4 (grid0.coords t)) (k0_pay5 (lnB m c t))
    (psB m c t) (ptB m c t) acc y = _
  rw [TileLoss.step_at]
  unfold tile cellG
  refine congrArg (acc y + ·) (Finset.sum_congr rfl fun r _ => Finset.sum_congr rfl fun cc _ => ?_)
  have e0 : (fun v => fsB m c t (ix3 r cc v)) = fsG m c (rowOf (tileRow t) r) (colOf (tileCol t) cc) :=
    funext fun v => fsB_at m c t r cc v
  have e1 : (fun k => psB m c t (ix3 r cc k)) = psG m c (rowOf (tileRow t) r) (colOf (tileCol t) cc) :=
    funext fun k => psB_at m c t r cc k
  have e3 : (fun k => ptB m c t (ix3 r cc k)) = ptG m c (rowOf (tileRow t) r) (colOf (tileCol t) cc) :=
    funext fun k => ptB_at m c t r cc k
  rw [e0, e1, e3, tgB_at, lnB_at, coord1]
  rfl

/-- The zero block the reset stores. -/
theorem pay2_zero (y : S8x128.Idx) : k0_pay2 (F := Ideal) y = 0 := by
  unfold k0_pay2
  rw [shapeCast_self]
  exact Ideal.ofBits_zero_f32

/-- The tile of row tile tt of column tile bt by natural numbers (zero outside the grid), -/
def tileN (c : Dev nD) (bt tt : ℕ) : EReal :=
  if h : bt < 2 ∧ tt < 32 then tile m c ⟨bt, h.1⟩ ⟨tt, h.2⟩ else 0

theorem tileN_at (c : Dev nD) (t : Fin cfg0.N) : tileN m c (t.val / 32) (t.val % 32) = tile m c (tileCol t) (tileRow t) := by
  have hN : cfg0.N = 64 := N_0
  have ht := t.isLt
  unfold tileN
  rw [dif_pos ⟨by omega, Nat.mod_lt _ (by decide)⟩]
  rfl

/-- and what the accumulator holds after point n: the tiles of rows 0 … n mod 32 of column tile n div 32. -/
def accN (c : Dev nD) (n : ℕ) : EReal := ∑ tt ∈ Finset.range (n % 32 + 1), tileN m c (n / 32) tt

/-- The accumulator after a column tile's first point: the reset, then the update. -/
theorem acc_A (c : Dev nD) (t : Fin cfg0.N) (h0 : t.val % 32 = 0) (h1 : ¬t.val % 32 = 31) :
    (outsAt0 m c t.val t.isLt).2 = step (grid0.coords t) (fsB m c t) (psB m c t) (tgB m c t) (ptB m c t) (lnB m c t) (k0_pay2 (F := Ideal)) := by
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- After a middle point: the update of what the point before left. -/
theorem acc_B (c : Dev nD) (t : Fin cfg0.N) (h0 : ¬t.val % 32 = 0) (h1 : ¬t.val % 32 = 31) :
    (outsAt0 m c t.val t.isLt).2 = step (grid0.coords t) (fsB m c t) (psB m c t) (tgB m c t) (ptB m c t) (lnB m c t) (outsAt0 m c (t.val - 1) (Nat.lt_of_le_of_lt (Nat.sub_le _ _) t.isLt)).2 := by
  rw [outsAt0_B m c t h0 h1]
  dsimp only
  exact sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- After a column tile's last point: the same update, -/
theorem acc_C (c : Dev nD) (t : Fin cfg0.N) (h0 : ¬t.val % 32 = 0) (h1 : t.val % 32 = 31) :
    (outsAt0 m c t.val t.isLt).2 = step (grid0.coords t) (fsB m c t) (psB m c t) (tgB m c t) (ptB m c t) (lnB m c t) (outsAt0 m c (t.val - 1) (Nat.lt_of_le_of_lt (Nat.sub_le _ _) t.isLt)).2 := by
  rw [outsAt0_C m c t h0 h1]
  dsimp only
  exact sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- and the output's staging buffer holds the updated accumulator under a leading unit axis. -/
theorem out_at_C (c : Dev nD) (t : Fin cfg0.N) (h0 : ¬t.val % 32 = 0) (h1 : t.val % 32 = 31) :
    (outsAt0 m c t.val t.isLt).1 = k0_pay1 (step (grid0.coords t) (fsB m c t) (psB m c t) (tgB m c t) (ptB m c t) (lnB m c t) (outsAt0 m c (t.val - 1) (Nat.lt_of_le_of_lt (Nat.sub_le _ _) t.isLt)).2) := by
  rw [outsAt0_C m c t h0 h1]
  dsimp only
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- THE ACCUMULATION: after point n every entry of the accumulator is the sum of the tiles so far of the column tile. -/
theorem acc_eq (c : Dev nD) : ∀ (n : ℕ) (h : n < cfg0.N), (outsAt0 m c n h).2 = fun _ => accN m c n
  | 0, h => by
    rw [acc_A m c ⟨0, h⟩ rfl (by show ¬(0 : ℕ) % 32 = 31; omega)]
    funext y
    rw [step_tile, pay2_zero, zero_add, ← tileN_at]
    show tileN m c (0 / 32) (0 % 32) = accN m c 0
    unfold accN
    simp
  | n + 1, h => by
    have hN : cfg0.N = 64 := N_0
    by_cases h0 : (n + 1) % 32 = 0
    · rw [acc_A m c ⟨n + 1, h⟩ h0 (by show ¬(n + 1) % 32 = 31; omega)]
      funext y
      rw [step_tile, pay2_zero, zero_add, ← tileN_at]
      show tileN m c ((n + 1) / 32) ((n + 1) % 32) = accN m c (n + 1)
      unfold accN
      rw [h0]
      simp
    · have hprev : (outsAt0 m c n (Nat.lt_of_succ_lt h)).2 = fun _ => accN m c n := acc_eq c n (Nat.lt_of_succ_lt h)
      have hstep : ∀ y : S8x128.Idx, (fun _ : S8x128.Idx => accN m c n) y + tileN m c ((n + 1) / 32) ((n + 1) % 32) = accN m c (n + 1) := by
        intro y
        show accN m c n + _ = _
        unfold accN
        have e1 : (n + 1) / 32 = n / 32 := by omega
        have e2 : (n + 1) % 32 = n % 32 + 1 := by omega
        rw [e1, e2]
        exact (Finset.sum_range_succ _ _).symm
      by_cases h1 : (n + 1) % 32 = 31
      · rw [acc_C m c ⟨n + 1, h⟩ h0 h1]
        funext y
        rw [step_tile, ← tileN_at]
        show (outsAt0 m c n _).2 y + tileN m c ((n + 1) / 32) ((n + 1) % 32) = _
        rw [hprev]
        exact hstep y
      · rw [acc_B m c ⟨n + 1, h⟩ h0 h1]
        funext y
        rw [step_tile, ← tileN_at]
        show (outsAt0 m c n _).2 y + tileN m c ((n + 1) / 32) ((n + 1) % 32) = _
        rw [hprev]
        exact hstep y

/-! ## The output array after the run -/

/-- What the 2 × 8 × 128 output ends holding: at every entry of column tile bt's block, the accumulator after
    the column tile's last point. -/
def outG (c : Dev nD) : Buf (Elt Ideal) ((c : Thread nD τ).loc main_v0) :=
  (fun i : S2x8x128.Idx => accN m c ((i 0).val * 32 + 31) : Vec Ideal S2x8x128 .f32)

/-- The extents of the output's block at every point, decided over the grid. -/
theorem xs5 : ∀ t : Fin cfg0.N, win0_5.xsize (grid0.coords t) 0 = 1 ∧ win0_5.xsize (grid0.coords t) 1 = 8 ∧ win0_5.xsize (grid0.coords t) 2 = 128 :=
  (by decide +kernel : ∀ t : Fin grid0.N, win0_5.xsize (grid0.coords t) 0 = 1 ∧ win0_5.xsize (grid0.coords t) 1 = 8 ∧ win0_5.xsize (grid0.coords t) 2 = 128)

/-- What a point's update leaves is the same at every entry, so the stored block is that value at every entry. -/
theorem stored_const (c : Dev nD) (t : Fin cfg0.N) (h0 : ¬t.val % 32 = 0) (h1 : t.val % 32 = 31) :
    (outsAt0 m c t.val t.isLt).1 = fun _ => accN m c t.val := by
  rw [out_at_C m c t h0 h1, ← acc_C m c t h0 h1, acc_eq m c t.val t.isLt]
  rfl

/-- A write-back writes its block of that array: point t with t mod 32 = 31 writes column tile t div 32's block. -/
theorem flushed_eq (c : Dev nD) (t : Fin cfg0.N) (hf : (cfg0.win 5).flush t = true) :
    (dats m 0 c).flushed 5 t = ((cfg0.win 5).blk t).view.read (Elt Ideal) (outG m c) := by
  have h31 : t.val % 32 = 31 := (flush0_5 t).mp hf
  have h0 : ¬t.val % 32 = 0 := by omega
  show (cfg0.win 5).cut (grid0.coords t) ((dats m 0 c).after 5 t) = _
  rw [after0_5, stored_const m c t h0 h31]
  funext y
  rw [View.read_apply]
  show accN m c t.val = outG m c (((cfg0.win 5).blk t).view.emb y)
  unfold outG
  show accN m c t.val = accN m c ((win0_5.index t 0 * 1 + 1 * (y 0).val) * 32 + 31)
  have hy : (y 0).val < win0_5.xsize (grid0.coords t) 0 := (y 0).isLt
  rw [(xs5 t).1] at hy
  rw [(idx5 t).1]
  congr 1
  omega

/-- Every entry of the output lies in the block of its column tile's last point. -/
theorem cover (c : Dev nD) (i : ((cfg0.win 5).arr.view.loc (c.tc : Thread nD τ)).2.ty.Idx) :
    ∃ t : Fin cfg0.N, (cfg0.win 5).flush t = true ∧ i ∈ ((cfg0.win 5).blk t).view.set := by
  have hN : cfg0.N = 64 := N_0
  have h0 : (i 0 : Nat) < 2 := (i 0).isLt
  have h1 : (i 1 : Nat) < 8 := (i 1).isLt
  have h2 : (i 2 : Nat) < 128 := (i 2).isLt
  obtain ⟨t, ht⟩ : ∃ t : Fin cfg0.N, t.val = (i 0 : Nat) * 32 + 31 := ⟨⟨(i 0 : Nat) * 32 + 31, by omega⟩, rfl⟩
  refine ⟨t, (flush0_5 t).mpr (by omega), ?_⟩
  show i ∈ ((View.whole main_v0).slice (win0_5.rect t)).set
  rw [View.set_slice_whole, Rect.mem_set_unit]
  intro a
  have hi := idx5 t
  have hx := xs5 t
  match a with
  | ⟨0, _⟩ =>
    show win0_5.index t 0 * win0_5.size 0 ≤ (i 0 : Nat) ∧ (i 0 : Nat) < win0_5.index t 0 * win0_5.size 0 + win0_5.xsize (grid0.coords t) 0
    rw [hi.1, hx.1, show win0_5.size 0 = 1 from rfl]; omega
  | ⟨1, _⟩ =>
    show win0_5.index t 1 * win0_5.size 1 ≤ (i 1 : Nat) ∧ (i 1 : Nat) < win0_5.index t 1 * win0_5.size 1 + win0_5.xsize (grid0.coords t) 1
    rw [hi.2.1, hx.2.1, show win0_5.size 1 = 8 from rfl]; omega
  | ⟨2, _⟩ =>
    show win0_5.index t 2 * win0_5.size 2 ≤ (i 2 : Nat) ∧ (i 2 : Nat) < win0_5.index t 2 * win0_5.size 2 + win0_5.xsize (grid0.coords t) 2
    rw [hi.2.2, hx.2.2, show win0_5.size 2 = 128 from rfl]; omega

/-- So the output array ends holding `outG`. -/
theorem final_out (c : Dev nD) : (dats m 0 c).arrAt 5 cfg0.N = outG m c :=
  (dats m 0 c).arrAt_eq_of_cover 5 (outG m c) (flushed_eq m c) (cover c)

/-! ## The lines after the region -/

/-- The lines after the region as a function of the output array: entry (bt, 0, 0) of each block, the two added
    from zero, over the batch size. -/
def tailOf (X : FVec Ideal S2x8x128 .f32) : FVec Ideal S_ .f32 :=
  Host.divf (F := Ideal) (Host.reduceAdd (F := Ideal) (shapeCast S2 (extractStridedSlice S2x1x1 ![0, 0, 0] X slices_S2x8x128_S2x1x1_0_0_0) shapeCasts_S2x1x1_S2)
    (constant (F := Ideal) S_ .f32 0x00000000#32) reducesTo_S2_S_d0 h_S_) (constant (F := Ideal) S_ .f32 0x43800000#32)

theorem tailOf_apply (X : FVec Ideal S2x8x128 .f32) (j : S_.Idx) :
    tailOf X j = Ideal.div (∑ k : Fin 2, X (ix3 k (0 : Fin 8) (0 : Fin 128))) batch := by
  unfold tailOf batch
  show FloatOps.hostDivf (Host.reduceAdd (F := Ideal) _ _ reducesTo_S2_S_d0 h_S_ j) (FloatOps.ofBits (F := Ideal) .f32 0x43800000#32) = _
  rw [Ideal.hostDivf_def, Ideal.ofBits_def]
  simp only [Host.reduceAdd, Ideal.hostReduceAdd_def]
  rw [Ideal.hostReduceAdd_total reducesTo_S2_S_d0 (fun b => b.elim0)]
  show Ideal.div (Ideal.ofBits .f32 0x00000000#32 + _) _ = _
  rw [Ideal.ofBits_zero_f32, zero_add]
  congr 1
  refine Fintype.sum_equiv ⟨fun i : S2.Idx => i 0, fun k : Fin 2 => ix1 k, fun i => (eq_ix1 i).symm, fun _ => rfl⟩ _ _ fun i => ?_
  obtain ⟨k, rfl⟩ : ∃ k : Fin 2, i = ix1 k := ⟨i 0, eq_ix1 i⟩
  show shapeCast S2 (extractStridedSlice S2x1x1 ![0, 0, 0] X slices_S2x8x128_S2x1x1_0_0_0) shapeCasts_S2x1x1_S2 (ix1 k) = X (ix3 k (0 : Fin 8) (0 : Fin 128))
  rw [shapeCast_apply _ shapeCasts_S2x1x1_S2 (ix1 k) (ix3 k (0 : Fin 1) (0 : Fin 1))
    (by rw [Shape.rowMajor_val_three, Shape.rowMajor_val_one]; show (k.val * 1 + 0) * 1 + 0 = k.val; omega)]
  exact extractStridedSlice_apply _ X _ _ (ix3 k (0 : Fin 8) (0 : Fin 128)) (fun a => by
    match a with
    | ⟨0, _⟩ => show k.val = 0 + k.val; omega
    | ⟨1, _⟩ => rfl
    | ⟨2, _⟩ => rfl)

/-- After a column tile's last point the accumulator holds the column tile's 32 tiles. -/
theorem accN_last (c : Dev nD) (bt : Fin 2) : accN m c (bt.val * 32 + 31) = ∑ tt : Fin 32, tile m c bt tt := by
  have hb := bt.isLt
  unfold accN
  rw [show (bt.val * 32 + 31) % 32 + 1 = 32 from by omega, show (bt.val * 32 + 31) / 32 = bt.val from by omega,
    Finset.sum_range (fun tt => tileN m c bt.val tt)]
  refine Finset.sum_congr rfl fun tt _ => ?_
  unfold tileN
  rw [dif_pos ⟨hb, tt.isLt⟩]

/-- The total of the arrays on core c. -/
def totalG (c : Dev nD) : EReal := total (fsG m c) (psG m c) (ptG m c) (tgG m c) (lnG m c)

/-- The lines after the region, applied to what the output ends holding, give the total: the two column
    tiles' sums are all the positions' losses, regrouped. -/
theorem tailOf_outG (c : Dev nD) : tailOf (outG m c) = fun _ => totalG m c := by
  funext j
  rw [tailOf_apply]
  unfold totalG total
  refine congrArg (Ideal.div · batch) ?_
  rw [sum_tiles]
  refine Finset.sum_congr rfl fun bt _ => ?_
  show accN m c (bt.val * 32 + 31) = _
  rw [accN_last]
  rfl

/-- The lines after the region, in the run's own terms. -/
theorem tail_eq (c : Dev nD) :
    Pipeline.afterTail₀ cfgs (dats m) 0 (V0 m) [hostOps1] c main_v4 = (fun _ => totalG m c : FVec Ideal S_ .f32) := by
  unfold Pipeline.afterTail₀
  show StableHlo.after hostOps1 _ (Proc.devRef .tc main_v4) = _
  after_results
  have hW : Pipeline.withArrays (cfgs 0).spec c (V0 m c) (fun w => (dats m 0 c).arrAt w (cfgs 0).N) (Proc.devRef .tc main_v0) = outG m c :=
    (Pipeline.withArrays_arr spec0 launch0.win.arr_inj c _ _ 5).trans (final_out m c)
  show tailOf (Pipeline.withArrays (cfgs 0).spec c (V0 m c) (fun w => (dats m 0 c).arrAt w (cfgs 0).N) (Proc.devRef .tc main_v0)) = _
  rw [hW]
  exact tailOf_outG m c

/-- THE RUN, READ: every weakly fair execution of the idealized kernel's @main terminates with the result at the
    total of the argument arrays, the arguments unchanged. -/
theorem run : θ_run defs (onTc (τ := τ) (main (F := Ideal))) ⟨m, fun _ => 0, ρ⟩ fun r => ∀ c : Dev nD,
      r.2.mem ((c : Thread nD τ).loc main_v4) = (fun _ => totalG m c : FVec Ideal S_ .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v4 (Pipeline.mem_restRefs_of main_v4 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Values

end Cert.KernelIdeal.TileRun

end
-- ==== Proof.RefLoss.lean ====
/-
  What the reference computes, read at the extended reals one operation at a time: its first-token stage at
  a position is that position's first-token loss, its pattern stage the position's pattern loss, and its
  result the total of all positions' losses over the batch size.
-/
import proofs.«408193_j18116172054727_3_alg».proof.Proof.RefRead
import proofs.«408193_j18116172054727_3_alg».proof.Proof.MaskedLoss
import Idealize.ShloMosaic.Lib.Pipeline.Value
import Idealize.ShloMosaic.Lib.ValueIdx
import Idealize.ShloMosaic.PureOps.Ideal.Laws
import Idealize.ShloMosaic.Lib.StableHlo.Predicate

noncomputable section

open scoped BigOperators

namespace Cert.ReferenceIdeal.RefLoss

open Idealize.ShloMosaic Idealize.ShloMosaic.ValueIdx Cert.ReferenceIdeal Cert.ReferenceIdeal.RefRead Cert.MaskedLoss

/-! ## The first-token stage -/

/-- The scores' shape drops its class axis to the positions' shape. -/
theorem reduces_rows : S2048x256x90.Reduces [2] S2048x256 := by decide

/-- A maximum-reduce of a [2048, 256, 90] array over its last axis, at (j, b): the fold of max, from the
    initial value's element, over the 90 entries of row (j, b). -/
theorem reduce_max_row (x : S2048x256x90.Idx → EReal) (init : S_.Idx → EReal) (j : Fin 2048) (b : Fin 256) :
    Host.reduce (FloatOps.maximumf (F := Ideal) (φ := .f32)) x init Gen.reducesTo_S2048x256x90_S2048x256_d2 Gen.h_S_ (ix2 j b)
      = (Finset.univ : Finset (Fin 90)).fold max (init (Shape.Idx.first Gen.h_S_)) (fun v => x (ix3 j b v)) := by
  have hf : (x ∘ reduces_rows.lift (ix2 j b)) = fun v : Fin 90 => x (ix3 j b v) :=
    funext fun v => congrArg x (funext fun a => Fin.ext (by
      match a with | ⟨0, _⟩ => rfl | ⟨1, _⟩ => rfl | ⟨2, _⟩ => rfl))
  have h := Host.reduce_eq_fold_single (FloatOps.maximumf (F := Ideal) (φ := .f32)) x init
    Gen.reducesTo_S2048x256x90_S2048x256_d2 reduces_rows Gen.h_S_ (ix2 j b)
  rw [hf] at h
  exact h

/-- The row maximum at (j, b): the fold of max from the -∞ word over the row's 90 scores; taking the maximum
    with a second -∞ word changes nothing, the fold being at least its initial value. -/
theorem rowmax_at (x0 : (⟨S2048x256x90, .f32⟩ : BufTy).Contents (Elt Ideal)) (j : Fin 2048) (b : Fin 256) :
    val_main_call0_v2 (F := Ideal) x0 (ix2 j b) = rowMax (fun v => x0 (ix3 j b v)) := by
  rw [val_main_call0_v2_apply, val_main_call0_v1_apply, val_main_call0_cst_0_apply]
  unfold val_main_call0_v0
  rw [reduce_max_row, val_main_call0_cst_apply]
  show max negInf ((Finset.univ : Finset (Fin 90)).fold max negInf fun v => x0 (ix3 j b v)) = _
  exact max_eq_right ((Finset.le_fold_max _).mpr (Or.inl le_rfl))

/-- A score shifted by its row's maximum. -/
theorem shifted_at (x0 : (⟨S2048x256x90, .f32⟩ : BufTy).Contents (Elt Ideal)) (j : Fin 2048) (b : Fin 256) (v : Fin 90) :
    val_main_call0_v5 (F := Ideal) x0 (ix3 j b v) = x0 (ix3 j b v) - rowMax (fun u => x0 (ix3 j b u)) := by
  have h : idx_main_call0_v3 (idx_main_call0_v4 (ix3 j b v)) = ix2 j b :=
    funext fun a => Fin.ext (by match a with | ⟨0, _⟩ => rfl | ⟨1, _⟩ => rfl)
  rw [val_main_call0_v5_apply, val_main_call0_v4_apply, val_main_call0_v3_apply, h, rowmax_at, Ideal.subf_def]

/-- The sum of the exponentials of a row's shifted scores. -/
theorem sumexp_at (x0 : (⟨S2048x256x90, .f32⟩ : BufTy).Contents (Elt Ideal)) (j : Fin 2048) (b : Fin 256) :
    val_main_call0_v7 (F := Ideal) x0 (ix2 j b)
      = ∑ u : Fin 90, Ideal.exp (x0 (ix3 j b u) - rowMax (fun w => x0 (ix3 j b w))) := by
  rw [val_main_call0_v7_apply, val_main_call0_cst_1_apply, Ideal.ofBits_def, Ideal.ofBits_zero_f32, zero_add]
  refine Finset.sum_congr rfl fun u _ => ?_
  have h : idx_main_call0_v7 (ix2 j b) u = ix3 j b u :=
    funext fun a => Fin.ext (by match a with | ⟨0, _⟩ => rfl | ⟨1, _⟩ => rfl | ⟨2, _⟩ => rfl)
  rw [h, val_main_call0_v6_apply, shifted_at, Ideal.hostUnary_exp_def]

/-- The log-softmax of row (j, b) at class v. -/
theorem logprob_at (x0 : (⟨S2048x256x90, .f32⟩ : BufTy).Contents (Elt Ideal)) (j : Fin 2048) (b : Fin 256) (v : Fin 90) :
    val_main_v0 (F := Ideal) x0 (ix3 j b v) = logProb (fun u => x0 (ix3 j b u)) v := by
  have h : idx_main_call0_v8 (idx_main_call0_v10 (ix3 j b v)) = ix2 j b :=
    funext fun a => Fin.ext (by match a with | ⟨0, _⟩ => rfl | ⟨1, _⟩ => rfl)
  rw [val_main_v0_apply, shifted_at, val_main_call0_v10_apply, val_main_call0_v9_apply, val_main_call0_v8_apply, h,
    sumexp_at, Ideal.subf_def, Ideal.hostUnary_log_def]
  rfl

/-- The clipped target at (j, b) is the clamped class. -/
theorem clamp_at (x2 : (⟨S2048x256, .i32⟩ : BufTy).Contents (Elt Ideal)) (j : Fin 2048) (b : Fin 256) :
    val_main_v3 (F := Ideal) x2 (ix2 j b) = clampClass (x2 (ix2 j b)) := by
  rw [val_main_v3_apply, val_main_call1_v4_apply, val_main_call1_v3_apply, val_main_c_1_apply, val_main_call1_v2_apply,
    val_main_call1_v1_apply, val_main_call1_v0_apply, val_main_c_0_apply]
  rfl

/-- The clamped class is not negative, -/
theorem clamp_not_neg (tg : BitVec 32) : IntOp.cmpi .slt (clampClass tg) 0#32 = 0#1 := by
  have h := clampClass_lt tg
  apply eq_zero_of_ne_one
  rw [StableHlo.Predicate.slt_iff_toNat (by omega) (by decide)]
  exact Nat.not_lt_zero _

/-- is at least 0, -/
theorem clamp_ge_zero (tg : BitVec 32) : IntOp.cmpi .sge (clampClass tg) 0#32 = 1#1 := by
  have h := clampClass_lt tg
  rw [StableHlo.Predicate.sge_iff_toNat (by omega) (by decide)]
  exact Nat.zero_le _

/-- and is at most 89. -/
theorem clamp_le_max (tg : BitVec 32) : IntOp.cmpi .sle (clampClass tg) 89#32 = 1#1 := by
  have h := clampClass_lt tg
  rw [StableHlo.Predicate.sle_iff_toNat (by omega) (by decide)]
  show (clampClass tg).toNat ≤ 89
  omega

/-- The gather's start index at (j, b): the clamped class, the wrap of a negative index never firing. -/
theorem start_at (x2 : (⟨S2048x256, .i32⟩ : BufTy).Contents (Elt Ideal)) (j : Fin 2048) (b : Fin 256) :
    val_main_call2_v5 (F := Ideal) x2 (ix4 j b (0 : Fin 1) (0 : Fin 1)) = clampClass (x2 (ix2 j b)) := by
  have hj := j.isLt
  have hb := b.isLt
  have h5 : idx_main_call2_v5 (ix4 j b (0 : Fin 1) (0 : Fin 1)) = ix3 j b (0 : Fin 1) :=
    funext fun a => Fin.ext (by
      match a with
      | ⟨0, _⟩ => show (((j.val * 256 + b.val) * 1 + 0) * 1 + 0) / 256 = j.val; omega
      | ⟨1, _⟩ => show (((j.val * 256 + b.val) * 1 + 0) * 1 + 0) / 1 % 256 = b.val; omega
      | ⟨2, _⟩ => rfl)
  have h4 : idx_main_v4 (ix3 j b (0 : Fin 1)) = ix2 j b :=
    funext fun a => Fin.ext (by match a with | ⟨0, _⟩ => rfl | ⟨1, _⟩ => rfl)
  rw [val_main_call2_v5_apply, h5, val_main_call2_v4_apply, val_main_call2_v1_apply, val_main_v4_apply, h4, clamp_at,
    val_main_call2_v0_apply, val_main_call2_c_apply, clamp_not_neg, select_zero]

/-- The start indices' shape drops its unit axis 3. -/
theorem reduces_unit : S2048x256x1x1.Reduces [3] S2048x256x1 := by decide

/-- A fold over a one-element index set is one application of the operation. -/
theorem fold_unit {α : Type} (op : α → α → α) [Std.Commutative op] [Std.Associative op] (c : α) (f : Fin 1 → α) :
    (Finset.univ : Finset (Fin 1)).fold op c f = op (f 0) c := by
  rw [Finset.univ_unique, Finset.fold_singleton]
  rfl

/-- An and-reduce of a [2048, 256, 1, 1] mask over its unit axis 3, at (j, b, 0): the one element and the initial bit. -/
theorem reduce_and_unit (m : IVec S2048x256x1x1 1) (init : S_.Idx → BitVec 1) (j : Fin 2048) (b : Fin 256) :
    Host.reduce IntOp.andi m init Gen.reducesTo_S2048x256x1x1_S2048x256x1_d3 Gen.h_S_ (ix3 j b (0 : Fin 1))
      = IntOp.andi (m (ix4 j b (0 : Fin 1) (0 : Fin 1))) (init (Shape.Idx.first Gen.h_S_)) := by
  have h := Host.reduce_eq_fold_single IntOp.andi m init
    Gen.reducesTo_S2048x256x1x1_S2048x256x1_d3 reduces_unit Gen.h_S_ (ix3 j b (0 : Fin 1))
  have hl : reduces_unit.lift (ix3 j b (0 : Fin 1)) (0 : Fin 1) = ix4 j b (0 : Fin 1) (0 : Fin 1) :=
    funext fun a => Fin.ext (by
      match a with | ⟨0, _⟩ => rfl | ⟨1, _⟩ => rfl | ⟨2, _⟩ => rfl | ⟨3, _⟩ => rfl)
  refine h.trans ((fold_unit IntOp.andi _ _).trans ?_)
  exact congrArg (fun i => IntOp.andi (m i) (init (Shape.Idx.first Gen.h_S_))) hl

/-- The gather's in-range mask is 1 at every position: the start index is the clamped class, which lies in [0, 89]. -/
theorem inrange_at (x2 : (⟨S2048x256, .i32⟩ : BufTy).Contents (Elt Ideal)) (j : Fin 2048) (b : Fin 256) :
    val_main_call2_v12 (F := Ideal) x2 (ix3 j b (0 : Fin 1)) = 1#1 := by
  unfold val_main_call2_v12
  rw [reduce_and_unit, val_main_call2_v11_apply, val_main_call2_v7_apply, val_main_call2_v10_apply, start_at,
    val_main_call2_v6_apply, val_main_call2_c_2_apply, val_main_call2_v9_apply, val_main_call2_v8_apply,
    val_main_call2_c_1_apply, val_main_call2_c_3_apply, clamp_ge_zero, clamp_le_max]
  rfl

/-! The gather along the class axis, batched over the positions: on each operand axis the clamped start, the batching
coordinate and the offset coordinate of result index (j, b, 0). -/

theorem gather_axis0 {w : Nat} (idx : IVec S2048x256x1x1 w) (j : Fin 2048) (b : Fin 256) :
    gather_S2048x256x90_S2048x256x1x1_S2048x256x1_n_2_01_01_2_3_111.start (ix3 j b (0 : Fin 1)) idx (0 : Fin 3)
      + gather_S2048x256x90_S2048x256x1x1_S2048x256x1_n_2_01_01_2_3_111.batchCoord (ix3 j b (0 : Fin 1)) (0 : Fin 3)
      + gather_S2048x256x90_S2048x256x1x1_S2048x256x1_n_2_01_01_2_3_111.offCoord (ix3 j b (0 : Fin 1)) (0 : Fin 3) = j.val := by
  have hb : (0 : Fin 3) ∈ gather_S2048x256x90_S2048x256x1x1_S2048x256x1_n_2_01_01_2_3_111.operandBatchingDims :=
    List.mem_cons_self
  rw [GatherDims.start_batching _ _ _ _ hb,
    GatherDims.offCoord_eq_zero _ _ _ (fun h => ((GatherDims.mem_sKept _ _).mp h).2 hb)]
  simp only [Nat.zero_add, Nat.add_zero]
  unfold GatherDims.batchCoord
  rw [dif_pos hb]
  rfl

theorem gather_axis1 {w : Nat} (idx : IVec S2048x256x1x1 w) (j : Fin 2048) (b : Fin 256) :
    gather_S2048x256x90_S2048x256x1x1_S2048x256x1_n_2_01_01_2_3_111.start (ix3 j b (0 : Fin 1)) idx (1 : Fin 3)
      + gather_S2048x256x90_S2048x256x1x1_S2048x256x1_n_2_01_01_2_3_111.batchCoord (ix3 j b (0 : Fin 1)) (1 : Fin 3)
      + gather_S2048x256x90_S2048x256x1x1_S2048x256x1_n_2_01_01_2_3_111.offCoord (ix3 j b (0 : Fin 1)) (1 : Fin 3) = b.val := by
  have hb : (1 : Fin 3) ∈ gather_S2048x256x90_S2048x256x1x1_S2048x256x1_n_2_01_01_2_3_111.operandBatchingDims :=
    List.mem_cons_of_mem _ List.mem_cons_self
  rw [GatherDims.start_batching _ _ _ _ hb,
    GatherDims.offCoord_eq_zero _ _ _ (fun h => ((GatherDims.mem_sKept _ _).mp h).2 hb)]
  simp only [Nat.zero_add, Nat.add_zero]
  unfold GatherDims.batchCoord
  rw [dif_pos hb]
  rfl

theorem gather_axis2 {w : Nat} (idx : IVec S2048x256x1x1 w) (j : Fin 2048) (b : Fin 256) :
    gather_S2048x256x90_S2048x256x1x1_S2048x256x1_n_2_01_01_2_3_111.start (ix3 j b (0 : Fin 1)) idx (2 : Fin 3)
      + gather_S2048x256x90_S2048x256x1x1_S2048x256x1_n_2_01_01_2_3_111.batchCoord (ix3 j b (0 : Fin 1)) (2 : Fin 3)
      + gather_S2048x256x90_S2048x256x1x1_S2048x256x1_n_2_01_01_2_3_111.offCoord (ix3 j b (0 : Fin 1)) (2 : Fin 3)
      = min (idx (ix4 j b (0 : Fin 1) (0 : Fin 1))).toInt.toNat 89 := by
  have hnb : (2 : Fin 3) ∉ gather_S2048x256x90_S2048x256x1x1_S2048x256x1_n_2_01_01_2_3_111.operandBatchingDims := by decide
  have hc : (2 : Fin 3) ∈ gather_S2048x256x90_S2048x256x1x1_S2048x256x1_n_2_01_01_2_3_111.collapsedSliceDims :=
    List.mem_singleton.mpr rfl
  have hm : (2 : Fin 3) ∈ gather_S2048x256x90_S2048x256x1x1_S2048x256x1_n_2_01_01_2_3_111.startIndexMap :=
    List.mem_singleton.mpr rfl
  rw [GatherDims.batchCoord_eq_zero _ _ _ hnb,
    GatherDims.offCoord_eq_zero _ _ _ (fun h => ((GatherDims.mem_sKept _ _).mp h).1 hc)]
  simp only [Nat.add_zero]
  unfold GatherDims.start
  rw [dif_pos hm]
  have hsi : gather_S2048x256x90_S2048x256x1x1_S2048x256x1_n_2_01_01_2_3_111.siIdx (ix3 j b (0 : Fin 1))
      ⟨List.idxOf (2 : Fin 3) gather_S2048x256x90_S2048x256x1x1_S2048x256x1_n_2_01_01_2_3_111.startIndexMap,
        List.idxOf_lt_length_iff.2 hm⟩ = ix4 j b (0 : Fin 1) (0 : Fin 1) := by
    funext c; refine Fin.ext ?_
    match c with
    | ⟨0, _⟩ => rfl
    | ⟨1, _⟩ => rfl
    | ⟨2, _⟩ => rfl
    | ⟨3, _⟩ => rfl
  rw [hsi]
  rfl

/-- The gather at (j, b, 0): the operand at (j, b, c), c the start index read signed and clamped into [0, 89]. -/
theorem gather_at {α : Type} {w : Nat} (x : S2048x256x90.Idx → α) (idx : IVec S2048x256x1x1 w) (j : Fin 2048) (b : Fin 256)
    (c : Fin 90) (hc : min (idx (ix4 j b (0 : Fin 1) (0 : Fin 1))).toInt.toNat 89 = c.val) :
    Host.gather gather_S2048x256x90_S2048x256x1x1_S2048x256x1_n_2_01_01_2_3_111 x idx (ix3 j b (0 : Fin 1))
      = x (ix3 j b c) := by
  unfold Host.gather
  congr 1
  funext a
  refine Fin.ext ?_
  match a with
  | ⟨0, _⟩ => exact gather_axis0 idx j b
  | ⟨1, _⟩ => exact gather_axis1 idx j b
  | ⟨2, _⟩ => exact (gather_axis2 idx j b).trans hc

/-- The clamped class, read signed and clamped into [0, 89] once more, is the class it names. -/
theorem class_clamped (tg : BitVec 32) : min (clampClass tg).toInt.toNat 89 = (classOf tg).val := by
  have h1 := clampClass_toNat tg
  have h2 := clampClass_lt tg
  show min (clampClass tg).toInt.toNat 89 = (clampClass tg).toNat
  omega

/-- The reference's first-token stage (log-softmax, the gather at the clamped target, the negation and the
    factor of the not-ignored test) at position (j, b). -/
theorem first_at (x0 : (⟨S2048x256x90, .f32⟩ : BufTy).Contents (Elt Ideal)) (x2 : (⟨S2048x256, .i32⟩ : BufTy).Contents (Elt Ideal))
    (j : Fin 2048) (b : Fin 256) :
    val_main_v9 (F := Ideal) x0 x2 (ix2 j b) = firstLoss (fun v => x0 (ix3 j b v)) (x2 (ix2 j b)) := by
  have hj := j.isLt
  have hb := b.isLt
  have h6 : idx_main_v6 (ix2 j b) = ix3 j b (0 : Fin 1) :=
    funext fun a => Fin.ext (by
      match a with
      | ⟨0, _⟩ => show (j.val * 256 + b.val) / 256 = j.val; omega
      | ⟨1, _⟩ => show (j.val * 256 + b.val) / 1 % 256 = b.val; omega
      | ⟨2, _⟩ => rfl)
  rw [val_main_v9_apply, val_main_v7_apply, val_main_v6_apply, h6, val_main_v5_apply, inrange_at, select_one,
    val_main_v8_apply, val_main_v2_apply, val_main_v1_apply, val_main_c_apply]
  unfold val_main_call2_v13
  rw [gather_at _ _ j b (classOf (x2 (ix2 j b))) (by rw [start_at]; exact class_clamped _), logprob_at,
    Ideal.mulf_def, Ideal.hostNegf_def, Ideal.negf_def]
  unfold firstLoss
  rw [← mul_bit]
  rfl

/-! ## The pattern stage -/

/-- The conjunction mask at (j, b, k): channel k below 89 minus the target, and row j below column b's length. -/
theorem mask_at (x2 : (⟨S2048x256, .i32⟩ : BufTy).Contents (Elt Ideal)) (x4 : (⟨S256, .i32⟩ : BufTy).Contents (Elt Ideal))
    (j : Fin 2048) (b : Fin 256) (k : Fin 89) :
    val_main_v26 (F := Ideal) x2 x4 (ix3 j b k)
      = keepBit (x2 (ix2 j b)) (BitVec.ofNat 32 j.val) (x4 (ix1 b)) k := by
  have h1 : idx_main_v20 (idx_main_v22 (ix3 j b k)) = ix2 j b :=
    funext fun a => Fin.ext (by match a with | ⟨0, _⟩ => rfl | ⟨1, _⟩ => rfl)
  have h2 : idx_main_v13 (idx_main_v15 (idx_main_v24 (idx_main_v25 (ix3 j b k)))) = ix1 b :=
    funext fun a => Fin.ext (by match a with | ⟨0, _⟩ => rfl)
  rw [val_main_v26_apply, val_main_v23_apply, val_main_v21_apply, val_main_v17_apply, val_main_v10_apply,
    val_main_v22_apply, val_main_v20_apply, val_main_v19_apply, val_main_v18_apply, val_main_c_2_apply,
    val_main_v25_apply, val_main_v24_apply, val_main_v16_apply, val_main_v14_apply, val_main_v12_apply,
    val_main_v11_apply, val_main_v15_apply, val_main_v13_apply, h1, h2]
  rfl

/-- The negated cross-entropy at (j, b, k). -/
theorem bce_at (x1 x3 : (⟨S2048x256x89, .f32⟩ : BufTy).Contents (Elt Ideal)) (i : S2048x256x89.Idx) :
    val_main_v41 (F := Ideal) x1 x3 i = bce (x1 i) (x3 i) := by
  rw [val_main_v41_apply, val_main_v40_apply, val_main_v31_apply, val_main_v30_apply, val_main_v29_apply,
    val_main_v28_apply, val_main_cst_apply, val_main_v39_apply, val_main_v33_apply, val_main_v32_apply,
    val_main_cst_3_apply, val_main_v38_apply, val_main_v37_apply, val_main_v35_apply, val_main_v34_apply,
    val_main_cst_4_apply, val_main_v36_apply, val_main_cst_5_apply]
  simp only [Ideal.addf_def, Ideal.subf_def, Ideal.mulf_def, Ideal.hostNegf_def, Ideal.negf_def,
    Ideal.hostUnary_log_def, Ideal.ofBits_def]
  rfl

/-- The reference's pattern stage (the masked cross-entropies summed over the 89 channels) at position (j, b). -/
theorem pat_at (x1 : (⟨S2048x256x89, .f32⟩ : BufTy).Contents (Elt Ideal)) (x2 : (⟨S2048x256, .i32⟩ : BufTy).Contents (Elt Ideal))
    (x3 : (⟨S2048x256x89, .f32⟩ : BufTy).Contents (Elt Ideal)) (x4 : (⟨S256, .i32⟩ : BufTy).Contents (Elt Ideal))
    (j : Fin 2048) (b : Fin 256) :
    val_main_v43 (F := Ideal) x1 x2 x3 x4 (ix2 j b)
      = patLoss (fun k => x1 (ix3 j b k)) (fun k => x3 (ix3 j b k)) (x2 (ix2 j b)) (BitVec.ofNat 32 j.val) (x4 (ix1 b)) := by
  rw [val_main_v43_apply, val_main_cst_6_apply, Ideal.ofBits_def, Ideal.ofBits_zero_f32, zero_add]
  unfold patLoss
  refine Finset.sum_congr rfl fun k _ => ?_
  have hi : idx_main_v43 (ix2 j b) k = ix3 j b k :=
    funext fun a => Fin.ext (by match a with | ⟨0, _⟩ => rfl | ⟨1, _⟩ => rfl | ⟨2, _⟩ => rfl)
  rw [hi, val_main_v42_apply, val_main_v27_apply, bce_at, mask_at, Ideal.mulf_def]
  exact mul_bit _ _

/-! ## The result -/

/-- The reference's result is the total. -/
theorem result_eq (x0 : (⟨S2048x256x90, .f32⟩ : BufTy).Contents (Elt Ideal)) (x1 : (⟨S2048x256x89, .f32⟩ : BufTy).Contents (Elt Ideal))
    (x2 : (⟨S2048x256, .i32⟩ : BufTy).Contents (Elt Ideal)) (x3 : (⟨S2048x256x89, .f32⟩ : BufTy).Contents (Elt Ideal))
    (x4 : (⟨S256, .i32⟩ : BufTy).Contents (Elt Ideal)) (i : S_.Idx) :
    val_main_v46 (F := Ideal) x0 x1 x2 x3 x4 i
      = total (fun j b v => x0 (ix3 j b v)) (fun j b k => x1 (ix3 j b k)) (fun j b k => x3 (ix3 j b k))
          (fun j b => x2 (ix2 j b)) (fun b => x4 (ix1 b)) := by
  have hs : (∑ j : Fin 2048, ∑ b : Fin 256, val_main_v44 (F := Ideal) x0 x1 x2 x3 x4 (ix2 j b))
      = ∑ j : Fin 2048, ∑ b : Fin 256, cell (fun v => x0 (ix3 j b v)) (fun k => x1 (ix3 j b k)) (fun k => x3 (ix3 j b k))
          (x2 (ix2 j b)) (BitVec.ofNat 32 j.val) (x4 (ix1 b)) :=
    Finset.sum_congr rfl fun j _ => Finset.sum_congr rfl fun b _ => by
      rw [val_main_v44_apply, first_at, pat_at, Ideal.addf_def]
      rfl
  rw [val_main_v46_apply, val_main_v45_apply, val_main_cst_7_apply, val_main_cst_8_apply, Ideal.ofBits_def,
    Ideal.ofBits_def, Ideal.ofBits_zero_f32, zero_add, Ideal.hostDivf_def, sum_idx2, hs]
  rfl

end Cert.ReferenceIdeal.RefLoss

end
-- ==== Proof.lean ====
/-
  The kernel and the reference compute one number from the same five arrays: the sum, over the 2048 × 256
  positions (time step, batch column), of the position's loss, divided by the batch size 256. A position's loss
  is the negated log-softmax of its 90 first-token scores at the clamped target (dropped at the ignore index)
  plus the masked binary cross-entropy of its 89 pattern channels.

  The two programs differ in three ways, none of which changes the value on the extended reals. The kernel drops
  a term by selecting it away, the reference by multiplying it with a 0 or 1 factor: x · 0 = 0 and x · 1 = x for
  every extended real, the infinities included. The kernel folds the row-below-length test into the channel
  threshold, the reference takes the conjunction of the two tests: the same, since no channel index is negative.
  The kernel sums tile by tile over a 2 × 32 grid into an accumulator and adds the two column tiles' sums on the
  host, the reference sums all positions at once: the same sum regrouped, by commutativity and associativity.
  So nothing here needs the inputs to be finite; the precondition is never opened.

  The kernel's value is read off its frame run: each case of the body leaves the accumulator updated by the tile's
  sum; by induction on the grid point the accumulator holds the column tile's sums so far; the output's two blocks
  end holding the column tiles' sums. The reference's value is its run read one operation at a time.
-/
import proofs.«408193_j18116172054727_3_alg».proof.Defs
import proofs.«408193_j18116172054727_3_alg».proof.Proof.Gen.Kernel
import proofs.«408193_j18116172054727_3_alg».proof.Proof.Gen.Kernel.Frame
import proofs.«408193_j18116172054727_3_alg».proof.Proof.Gen.KernelIdeal
import proofs.«408193_j18116172054727_3_alg».proof.Proof.Gen.KernelIdeal.Frame
import proofs.«408193_j18116172054727_3_alg».proof.Proof.Gen.ReferenceIdeal
import proofs.«408193_j18116172054727_3_alg».proof.Proof.Gen.Pre_finite_inputs
import proofs.«408193_j18116172054727_3_alg».proof.Proof.MaskedLoss
import proofs.«408193_j18116172054727_3_alg».proof.Proof.TileRun
import proofs.«408193_j18116172054727_3_alg».proof.Proof.RefRun
import proofs.«408193_j18116172054727_3_alg».proof.Proof.RefRead
import proofs.«408193_j18116172054727_3_alg».proof.Proof.RefLoss
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- At the ideal instance the kernel's result ends at the total of its argument arrays (the frame run, read) and the
    reference's at the total of its own (its run, read operation by operation); the arrays agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun _ => Cert.KernelIdeal.TileRun.totalG m c : FVec Ideal Cert.KernelIdeal.S_ .f32), Cert.KernelIdeal.TileRun.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.val_main_v46_eq]
  funext i
  rw [Cert.ReferenceIdeal.RefLoss.result_eq]
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
